-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S100000 : Shape := ⟨1, ![100000]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S100000x128 .f32) (main_arg1 : IVec S2x640000 32) (main_arg2 : IVec S100000 32) (main_arg3 : FVec F S128x128 .f32) (main_arg4 : FVec F S128x128 .f32) (main_arg5 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S100000x128 : Shape := ⟨2, ![100000, 128]⟩
abbrev S2x640000 : Shape := ⟨2, ![2, 640000]⟩
abbrev S100000 : Shape := ⟨1, ![100000]⟩
abbrev S128x128 : Shape := ⟨2, ![128, 128]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S5000x128 : Shape := ⟨2, ![5000, 128]⟩
abbrev S740000x128 : Shape := ⟨2, ![740000, 128]⟩
abbrev S512x128 : Shape := ⟨2, ![512, 128]⟩
abbrev S100000x1 : Shape := ⟨2, ![100000, 1]⟩

abbrev nBuf : Space → Nat
  | .hbm => 101
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S100000, .i32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S100000, .i32⟩
  | .hbm, ⟨7, _⟩ => ⟨S1x640000, .i32⟩
  | .hbm, ⟨8, _⟩ => ⟨S640000, .i32⟩
  | .hbm, ⟨9, _⟩ => ⟨S740000, .i32⟩
  | .hbm, ⟨10, _⟩ => ⟨S1x640000, .i32⟩
  | .hbm, ⟨11, _⟩ => ⟨S640000, .i32⟩
  | .hbm, ⟨12, _⟩ => ⟨S740000, .i32⟩
  | .hbm, ⟨13, _⟩ => ⟨S_, .f32⟩
  | .hbm, ⟨14, _⟩ => ⟨S740000, .f32⟩
  | .hbm, ⟨15, _⟩ => ⟨S_, .f32⟩
  | .hbm, ⟨16, _⟩ => ⟨S100000, .f32⟩
  | .hbm, ⟨17, _⟩ => ⟨S740000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S740000, .i32⟩
  | .hbm, ⟨29, _⟩ => ⟨S740000, .i1⟩
  | .hbm, ⟨30, _⟩ => ⟨S_, .i32⟩
  | .hbm, ⟨31, _⟩ => ⟨S740000, .i32⟩
  | .hbm, ⟨32, _⟩ => ⟨S740000, .i32⟩
  | .hbm, ⟨33, _⟩ => ⟨S740000, .i32⟩
  | .hbm, ⟨34, _⟩ => ⟨S740000x1, .i32⟩
  | .hbm, ⟨35, _⟩ => ⟨S740000, .f32⟩
  | .hbm, ⟨36, _⟩ => ⟨S_, .i32⟩
  | .hbm, ⟨37, _⟩ => ⟨S740000, .i32⟩
  | .hbm, ⟨38, _⟩ => ⟨S740000, .i1⟩
  | .hbm, ⟨39, _⟩ => ⟨S_, .i32⟩
  | .hbm, ⟨40, _⟩ => ⟨S740000, .i32⟩
  | .hbm, ⟨41, _⟩ => ⟨S740000, .i32⟩
  | .hbm, ⟨42, _⟩ => ⟨S740000, .i32⟩
  | .hbm, ⟨43, _⟩ => ⟨S740000x1, .i32⟩
  | .hbm, ⟨44, _⟩ => ⟨S740000, .f32⟩
  | .hbm, ⟨45, _⟩ => ⟨S740000, .f32⟩
  | .hbm, ⟨46, _⟩ => ⟨S100000x128, .f32⟩
  | .hbm, ⟨47, _⟩ => ⟨S740000x1, .f32⟩
  | .hbm, ⟨48, _⟩ => ⟨S_, .i32⟩
  | .hbm, ⟨49, _⟩ => ⟨S740000, .i32⟩
  | .hbm, ⟨50, _⟩ => ⟨S740000, .i1⟩
  | .hbm, ⟨51, _⟩ => ⟨S_, .i32⟩
  | .hbm, ⟨52, _⟩ => ⟨S740000, .i32⟩
  | .hbm, ⟨53, _⟩ => ⟨S740000, .i32⟩
  | .hbm, ⟨54, _⟩ => ⟨S740000, .i32⟩
  | .hbm, ⟨55, _⟩ => ⟨S740000x1, .i32⟩
  | .hbm, ⟨56, _⟩ => ⟨S740000x128, .f32⟩
  | .hbm, ⟨57, _⟩ => ⟨S740000x128, .f32⟩
  | .hbm, ⟨58, _⟩ => ⟨S740000x128, .f32⟩
  | .hbm, ⟨59, _⟩ => ⟨S_, .f32⟩
  | .hbm, ⟨60, _⟩ => ⟨S100000x128, .f32⟩
  | .hbm, ⟨61, _⟩ => ⟨S740000x1, .i32⟩
  | .hbm, ⟨62, _⟩ => ⟨S100000x128, .f32⟩
  | .hbm, ⟨63, _⟩ => ⟨S100000x128, .f32⟩
  | .hbm, ⟨64, _⟩ => ⟨S740000x1, .f32⟩
  | .hbm, ⟨65, _⟩ => ⟨S_, .i32⟩
  | .hbm, ⟨66, _⟩ => ⟨S740000, .i32⟩
  | .hbm, ⟨67, _⟩ => ⟨S740000, .i1⟩
  | .hbm, ⟨68, _⟩ => ⟨S_, .i32⟩
  | .hbm, ⟨69, _⟩ => ⟨S740000, .i32⟩
  | .hbm, ⟨70, _⟩ => ⟨S740000, .i32⟩
  | .hbm, ⟨71, _⟩ => ⟨S740000, .i32⟩
  | .hbm, ⟨72, _⟩ => ⟨S740000x1, .i32⟩
  | .hbm, ⟨73, _⟩ => ⟨S740000x128, .f32⟩
  | .hbm, ⟨74, _⟩ => ⟨S740000x128, .f32⟩
  | .hbm, ⟨75, _⟩ => ⟨S740000x128, .f32⟩
  | .hbm, ⟨76, _⟩ => ⟨S_, .f32⟩
  | .hbm, ⟨77, _⟩ => ⟨S100000x128, .f32⟩
  | .hbm, ⟨78, _⟩ => ⟨S740000x1, .i32⟩
  | .hbm, ⟨79, _⟩ => ⟨S100000x128, .f32⟩
  | .hbm, ⟨80, _⟩ => ⟨S100000x128, .f32⟩
  | .hbm, ⟨81, _⟩ => ⟨S740000x1, .f32⟩
  | .hbm, ⟨82, _⟩ => ⟨S_, .i32⟩
  | .hbm, ⟨83, _⟩ => ⟨S740000, .i32⟩
  | .hbm, ⟨84, _⟩ => ⟨S740000, .i1⟩
  | .hbm, ⟨85, _⟩ => ⟨S_, .i32⟩
  | .hbm, ⟨86, _⟩ => ⟨S740000, .i32⟩
  | .hbm, ⟨87, _⟩ => ⟨S740000, .i32⟩
  | .hbm, ⟨88, _⟩ => ⟨S740000, .i32⟩
  | .hbm, ⟨89, _⟩ => ⟨S740000x1, .i32⟩
  | .hbm, ⟨90, _⟩ => ⟨S740000x128, .f32⟩
  | .hbm, ⟨91, _⟩ => ⟨S740000x128, .f32⟩
  | .hbm, ⟨92, _⟩ => ⟨S740000x128, .f32⟩
  | .hbm, ⟨93, _⟩ => ⟨S_, .f32⟩
  | .hbm, ⟨94, _⟩ => ⟨S100000x128, .f32⟩
  | .hbm, ⟨95, _⟩ => ⟨S740000x1, .i32⟩
  | .hbm, ⟨96, _⟩ => ⟨S100000x128, .f32⟩
  | .hbm, ⟨97, _⟩ => ⟨S_, .f32⟩
  | .hbm, ⟨98, _⟩ => ⟨S512x128, .f32⟩
  | .hbm, ⟨99, _⟩ => ⟨S100000x1, .i32⟩
  | .hbm, ⟨100, _⟩ => ⟨S512x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_12 : Ref sig .tc := ⟨.hbm, 82, rfl⟩
abbrev main_v60 : Ref sig .tc := ⟨.hbm, 83, rfl⟩
abbrev main_v61 : Ref sig .tc := ⟨.hbm, 84, rfl⟩
abbrev main_c_13 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_14 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_15 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  shapeCasts_S5000x128_S5000x128 : S5000x128.ShapeCasts S5000x128
  bcast_S_S512x128 : S_.BroadcastsInDim S512x128 (![] : Fin 0 → Fin S512x128.rank)
  bcast_S100000_S100000x1_0 : S100000.BroadcastsInDim S100000x1 (![0] : Fin 1 → Fin S100000x1.rank)
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S5000x128_S128x128_S5000x128_1_0_0_1_n_n_wf : DotDims.WF S5000x128 S128x128 S5000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  scatter_S512x128_S100000x1_S100000x128_1_0_0_1_wf : ScatterDims.WF S512x128 S100000x1 S100000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v57) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S100000 : Shape := ⟨1, ![100000]⟩
abbrev S128x128 : Shape := ⟨2, ![128, 128]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S740000x128 : Shape := ⟨2, ![740000, 128]⟩
abbrev S512x128 : Shape := ⟨2, ![512, 128]⟩
abbrev S100000x1 : Shape := ⟨2, ![100000, 1]⟩

abbrev nBuf : Space → Nat
  | .hbm => 175
  | .vmem => 0
  | .smem => 0
  | _ => 0

abbrev hbmTy0_0 (i : Nat) : BufTy := match i % 128 with
  | 0 => ⟨S100000x128, .f32⟩
  | 1 => ⟨S2x640000, .i32⟩
  | 2 => ⟨S100000, .i32⟩
  | 3 => ⟨S128x128, .f32⟩
  | 4 => ⟨S128x128, .f32⟩
  | 5 => ⟨S128x128, .f32⟩
  | 6 => ⟨S100000, .i32⟩
  | 7 => ⟨S1x640000, .i32⟩
  | 8 => ⟨S640000, .i32⟩
  | 9 => ⟨S740000, .i32⟩
  | 10 => ⟨S1x640000, .i32⟩
  | 11 => ⟨S640000, .i32⟩
  | 12 => ⟨S740000, .i32⟩
  | 13 => ⟨S100000x128, .f32⟩
  | 14 => ⟨S_, .f32⟩
  | 15 => ⟨S740000, .f32⟩
  | 16 => ⟨S_, .f32⟩
  | 17 => ⟨S100000, .f32⟩
  | 18 => ⟨S740000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S740000, .i32⟩
  | 30 => ⟨S740000, .i1⟩
  | 31 => ⟨S_, .i32⟩
  | 32 => ⟨S740000, .i32⟩
  | 33 => ⟨S740000, .i32⟩
  | 34 => ⟨S740000, .i32⟩
  | 35 => ⟨S740000x1, .i32⟩
  | 36 => ⟨S740000, .f32⟩
  | 37 => ⟨S_, .i32⟩
  | 38 => ⟨S740000, .i32⟩
  | 39 => ⟨S740000, .i1⟩
  | 40 => ⟨S_, .i32⟩
  | 41 => ⟨S740000, .i32⟩
  | 42 => ⟨S740000, .i32⟩
  | 43 => ⟨S740000, .i32⟩
  | 44 => ⟨S740000x1, .i32⟩
  | 45 => ⟨S740000, .f32⟩
  | 46 => ⟨S740000, .f32⟩
  | 47 => ⟨S740000x1, .f32⟩
  | 48 => ⟨S_, .i32⟩
  | 49 => ⟨S740000, .i32⟩
  | 50 => ⟨S740000, .i1⟩
  | 51 => ⟨S_, .i32⟩
  | 52 => ⟨S740000, .i32⟩
  | 53 => ⟨S740000, .i32⟩
  | 54 => ⟨S740000, .i32⟩
  | 55 => ⟨S740000x1, .i32⟩
  | 56 => ⟨S740000x128, .f32⟩
  | 57 => ⟨S740000x128, .f32⟩
  | 58 => ⟨S740000x128, .f32⟩
  | 59 => ⟨S_, .f32⟩
  | 60 => ⟨S100000x128, .f32⟩
  | 61 => ⟨S740000x1, .i32⟩
  | 62 => ⟨S100000x128, .f32⟩
  | 63 => ⟨S100000x128, .f32⟩
  | 64 => ⟨S_, .f32⟩
  | 65 => ⟨S740000, .f32⟩
  | 66 => ⟨S_, .f32⟩
  | 67 => ⟨S100000, .f32⟩
  | 68 => ⟨S740000x1, .i32⟩
  | 69 => ⟨S100000, .f32⟩
  | 70 => ⟨S_, .f32⟩
  | 71 => ⟨S100000, .f32⟩
  | 72 => ⟨S100000, .i1⟩
  | 73 => ⟨S100000, .f32⟩
  | 74 => ⟨S_, .f32⟩
  | 75 => ⟨S_, .f32⟩
  | 76 => ⟨S100000, .f32⟩
  | 77 => ⟨S100000, .f32⟩
  | 78 => ⟨S_, .i32⟩
  | 79 => ⟨S740000, .i32⟩
  | 80 => ⟨S740000, .i1⟩
  | 81 => ⟨S_, .i32⟩
  | 82 => ⟨S740000, .i32⟩
  | 83 => ⟨S740000, .i32⟩
  | 84 => ⟨S740000, .i32⟩
  | 85 => ⟨S740000x1, .i32⟩
  | 86 => ⟨S740000, .f32⟩
  | 87 => ⟨S_, .i32⟩
  | 88 => ⟨S740000, .i32⟩
  | 89 => ⟨S740000, .i1⟩
  | 90 => ⟨S_, .i32⟩
  | 91 => ⟨S740000, .i32⟩
  | 92 => ⟨S740000, .i32⟩
  | 93 => ⟨S740000, .i32⟩
  | 94 => ⟨S740000x1, .i32⟩
  | 95 => ⟨S740000, .f32⟩
  | 96 => ⟨S740000, .f32⟩
  | 97 => ⟨S740000x1, .f32⟩
  | 98 => ⟨S_, .i32⟩
  | 99 => ⟨S740000, .i32⟩
  | 100 => ⟨S740000, .i1⟩
  | 101 => ⟨S_, .i32⟩
  | 102 => ⟨S740000, .i32⟩
  | 103 => ⟨S740000, .i32⟩
  | 104 => ⟨S740000, .i32⟩
  | 105 => ⟨S740000x1, .i32⟩
  | 106 => ⟨S740000x128, .f32⟩
  | 107 => ⟨S740000x128, .f32⟩
  | 108 => ⟨S740000x128, .f32⟩
  | 109 => ⟨S_, .f32⟩
  | 110 => ⟨S100000x128, .f32⟩
  | 111 => ⟨S740000x1, .i32⟩
  | 112 => ⟨S100000x128, .f32⟩
  | 113 => ⟨S_, .f32⟩
  | 114 => ⟨S_, .f32⟩
  | 115 => ⟨S100000x128, .f32⟩
  | 116 => ⟨S100000x128, .i1⟩
  | 117 => ⟨S_, .f32⟩
  | 118 => ⟨S100000x128, .f32⟩
  | 119 => ⟨S100000x128, .f32⟩
  | 120 => ⟨S100000x128, .f32⟩
  | 121 => ⟨S100000x128, .f32⟩
  | 122 => ⟨S_, .f32⟩
  | 123 => ⟨S740000, .f32⟩
  | 124 => ⟨S_, .f32⟩
  | 125 => ⟨S100000, .f32⟩
  | 126 => ⟨S740000x1, .i32⟩
  | 127 => ⟨S100000, .f32⟩
  | _ => ⟨S100000x128, .f32⟩

abbrev hbmTy0_1 (i : Nat) : BufTy := match i % 128 with
  | 0 => ⟨S_, .f32⟩
  | 1 => ⟨S100000, .f32⟩
  | 2 => ⟨S100000, .i1⟩
  | 3 => ⟨S100000, .f32⟩
  | 4 => ⟨S_, .f32⟩
  | 5 => ⟨S_, .f32⟩
  | 6 => ⟨S100000, .f32⟩
  | 7 => ⟨S100000, .f32⟩
  | 8 => ⟨S_, .i32⟩
  | 9 => ⟨S740000, .i32⟩
  | 10 => ⟨S740000, .i1⟩
  | 11 => ⟨S_, .i32⟩
  | 12 => ⟨S740000, .i32⟩
  | 13 => ⟨S740000, .i32⟩
  | 14 => ⟨S740000, .i32⟩
  | 15 => ⟨S740000x1, .i32⟩
  | 16 => ⟨S740000, .f32⟩
  | 17 => ⟨S_, .i32⟩
  | 18 => ⟨S740000, .i32⟩
  | 19 => ⟨S740000, .i1⟩
  | 20 => ⟨S_, .i32⟩
  | 21 => ⟨S740000, .i32⟩
  | 22 => ⟨S740000, .i32⟩
  | 23 => ⟨S740000, .i32⟩
  | 24 => ⟨S740000x1, .i32⟩
  | 25 => ⟨S740000, .f32⟩
  | 26 => ⟨S740000, .f32⟩
  | 27 => ⟨S740000x1, .f32⟩
  | 28 => ⟨S_, .i32⟩
  | 29 => ⟨S740000, .i32⟩
  | 30 => ⟨S740000, .i1⟩
  | 31 => ⟨S_, .i32⟩
  | 32 => ⟨S740000, .i32⟩
  | 33 => ⟨S740000, .i32⟩
  | 34 => ⟨S740000, .i32⟩
  | 35 => ⟨S740000x1, .i32⟩
  | 36 => ⟨S740000x128, .f32⟩
  | 37 => ⟨S740000x128, .f32⟩
  | 38 => ⟨S740000x128, .f32⟩
  | 39 => ⟨S_, .f32⟩
  | 40 => ⟨S100000x128, .f32⟩
  | 41 => ⟨S740000x1, .i32⟩
  | 42 => ⟨S100000x128, .f32⟩
  | 43 => ⟨S_, .f32⟩
  | 44 => ⟨S512x128, .f32⟩
  | 45 => ⟨S100000x1, .i32⟩
  | 46 => ⟨S512x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_call1_v0 : Ref sig .tc := ⟨.hbm, 75, rfl⟩
abbrev main_call1_v1 : Ref sig .tc := ⟨.hbm, 76, rfl⟩
abbrev main_v52 : Ref sig .tc := ⟨.hbm, 77, rfl⟩
abbrev main_c_13 : Ref sig .tc := ⟨.hbm, 78, rfl⟩
abbrev main_v53 : Ref sig .tc := ⟨.hbm, 79, rfl⟩
abbrev main_v54 : Ref sig .tc := ⟨.hbm, 80, rfl⟩
abbrev main_c_14 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_15 : Ref sig .tc := ⟨.hbm, 87, rfl⟩
abbrev main_v60 : Ref sig .tc := ⟨.hbm, 88, rfl⟩
abbrev main_v61 : Ref sig .tc := ⟨.hbm, 89, rfl⟩
abbrev main_c_16 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_17 : Ref sig .tc := ⟨.hbm, 98, rfl⟩
abbrev main_v69 : Ref sig .tc := ⟨.hbm, 99, rfl⟩
abbrev main_v70 : Ref sig .tc := ⟨.hbm, 100, rfl⟩
abbrev main_c_18 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_19 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_20 : Ref sig .tc := ⟨.hbm, 113, rfl⟩
abbrev main_call2_cst : Ref sig .tc := ⟨.hbm, 114, rfl⟩
abbrev main_call2_v0 : Ref sig .tc := ⟨.hbm, 115, rfl⟩
abbrev main_call2_v1 : Ref sig .tc := ⟨.hbm, 116, rfl⟩
abbrev main_call2_v2 : Ref sig .tc := ⟨.hbm, 117, rfl⟩
abbrev main_call2_v3 : Ref sig .tc := ⟨.hbm, 118, rfl⟩
abbrev main_call2_v4 : Ref sig .tc := ⟨.hbm, 119, rfl⟩
abbrev main_v81 : Ref sig .tc := ⟨.hbm, 120, rfl⟩
abbrev main_v82 : Ref sig .tc := ⟨.hbm, 121, rfl⟩
abbrev main_cst_21 : Ref sig .tc := ⟨.hbm, 122, rfl⟩
abbrev main_v83 : Ref sig .tc := ⟨.hbm, 123, rfl⟩
abbrev main_cst_22 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_cst_23 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_cst_24 : Ref sig .tc := ⟨.hbm, 132, rfl⟩
abbrev main_call3_v0 : Ref sig .tc := ⟨.hbm, 133, rfl⟩
abbrev main_call3_v1 : Ref sig .tc := ⟨.hbm, 134, rfl⟩
abbrev main_v90 : Ref sig .tc := ⟨.hbm, 135, rfl⟩
abbrev main_c_25 : Ref sig .tc := ⟨.hbm, 136, rfl⟩
abbrev main_v91 : Ref sig .tc := ⟨.hbm, 137, rfl⟩
abbrev main_v92 : Ref sig .tc := ⟨.hbm, 138, rfl⟩
abbrev main_c_26 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_c_27 : Ref sig .tc := ⟨.hbm, 145, rfl⟩
abbrev main_v98 : Ref sig .tc := ⟨.hbm, 146, rfl⟩
abbrev main_v99 : Ref sig .tc := ⟨.hbm, 147, rfl⟩
abbrev main_c_28 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_c_29 : Ref sig .tc := ⟨.hbm, 156, rfl⟩
abbrev main_v107 : Ref sig .tc := ⟨.hbm, 157, rfl⟩
abbrev main_v108 : Ref sig .tc := ⟨.hbm, 158, rfl⟩
abbrev main_c_30 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_cst_31 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_cst_32 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  dot_S100000x128_S128x128_S100000x128_1_0_0_1_n_n_wf : DotDims.WF S100000x128 S128x128 S100000x128 [1] [0] [0] [1] [] []
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  scatter_S512x128_S100000x1_S100000x128_1_0_0_1_wf : ScatterDims.WF S512x128 S100000x1 S100000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf

class Facts : Prop extends Facts₀ where

variable [Facts]
-- ==== Proof.Chain.lean ====
/-
  The host side of one graph-convolution layer, as functions of arrays.

  Both programs run the same host operations around their dense products: the edge list with a self loop per
  node appended, the degree of every node (a scatter-add of ones over the target nodes), its inverse square root
  where the degree is positive, the edge weight `dinv[row] * dinv[col]`, the propagation
  `out[col[e], :] += weight[e] * xw[row[e], :]`, and the final pooling of nodes into graphs. Each is named here
  once, over any float instance, so that the two programs' results can be compared as the same functions applied
  to equal dense products, without ever opening a scatter or a gather.
-/
import proofs.«124265_j30657476559416_1_alg».proof.Proof.Gen.KernelIdeal

noncomputable section

namespace Cert.KernelIdeal.Chain

open Idealize.ShloMosaic Cert.KernelIdeal
open Cert.KernelIdeal.Facts₀

variable {F : FTy → Type} [FloatOps F]

/-- Row `0` of the edge list (the source node of every edge) followed by `0, 1, …, N-1` (the self loops). -/
def sources (ei : (⟨S2x640000, .i32⟩ : BufTy).Contents (Elt F)) : (⟨S740000, .i32⟩ : BufTy).Contents (Elt F) :=
  concatenate S740000 0
    [⟨S640000, shapeCast S640000 (extractStridedSlice S1x640000 ![0, 0] ei slices_S2x640000_S1x640000_0_0) shapeCasts_S1x640000_S640000⟩,
     ⟨S100000, iotaInDim S100000 32 0⟩] concatenates_S640000_S100000_S740000_d0

/-- Row `1` of the edge list (the target node of every edge) followed by the self loops. -/
def targets (ei : (⟨S2x640000, .i32⟩ : BufTy).Contents (Elt F)) : (⟨S740000, .i32⟩ : BufTy).Contents (Elt F) :=
  concatenate S740000 0
    [⟨S640000, shapeCast S640000 (extractStridedSlice S1x640000 ![1, 0] ei slices_S2x640000_S1x640000_1_0) shapeCasts_S1x640000_S640000⟩,
     ⟨S100000, iotaInDim S100000 32 0⟩] concatenates_S640000_S100000_S740000_d0

/-- A node index as a gather's start index: a negative index counts from the end (`v + N`), and the vector becomes a
    column of one-entry index tuples. -/
def asStart (v : (⟨S740000, .i32⟩ : BufTy).Contents (Elt F)) : (⟨S740000x1, .i32⟩ : BufTy).Contents (Elt F) :=
  broadcastInDim S740000x1 ![0] bcast_S740000_S740000x1_0
    (select (cmpi .slt v (broadcastInDim S740000 ![] bcast_S_S740000 (constantI S_ 32 0#32)))
      (addi v (broadcastInDim S740000 ![] bcast_S_S740000 (constantI S_ 32 100000#32))) v)

/-- A node index as a scatter's index column, taken as it is. -/
def asSlot (v : (⟨S740000, .i32⟩ : BufTy).Contents (Elt F)) : (⟨S740000x1, .i32⟩ : BufTy).Contents (Elt F) :=
  broadcastInDim S740000x1 ![0] bcast_S740000_S740000x1_0 v

/-- The degree of every node: one added at the target of every edge. -/
def degree (col : (⟨S740000, .i32⟩ : BufTy).Contents (Elt F)) : (⟨S100000, .f32⟩ : BufTy).Contents (Elt F) :=
  Host.scatterAdd scatter_S100000_S740000x1_S740000_n_0_0_1
    (broadcastInDim S100000 ![] bcast_S_S100000 (constant S_ .f32 0x00000000#32)) (asSlot col)
    (broadcastInDim S740000 ![] bcast_S_S740000 (constant S_ .f32 0x3F800000#32))

/-- `deg^(-1/2)` where the degree is positive, zero elsewhere. -/
def invSqrtDegree (col : (⟨S740000, .i32⟩ : BufTy).Contents (Elt F)) : (⟨S100000, .f32⟩ : BufTy).Contents (Elt F) :=
  select (cmpf .ogt (degree col) (broadcastInDim S100000 ![] bcast_S_S100000 (constant S_ .f32 0x00000000#32)))
    (Host.rsqrt (degree col))
    (broadcastInDim S100000 ![] bcast_S_S100000 (id (constant S_ .f32 0x00000000#32)))

/-- The weight of every edge: the product of the two end nodes' `deg^(-1/2)`. -/
def edgeWeight (row col : (⟨S740000, .i32⟩ : BufTy).Contents (Elt F)) : (⟨S740000, .f32⟩ : BufTy).Contents (Elt F) :=
  mulf (Host.gather gather_S100000_S740000x1_S740000_n_0_n_n_0_1_1 (invSqrtDegree col) (asStart row))
    (Host.gather gather_S100000_S740000x1_S740000_n_0_n_n_0_1_1 (invSqrtDegree col) (asStart col))

/-- One propagation step: every edge carries its source row of `xw`, scaled by the edge's weight, to its target row,
    where the contributions are added up from zero. -/
def propagate (wgt : (⟨S740000, .f32⟩ : BufTy).Contents (Elt F)) (row col : (⟨S740000, .i32⟩ : BufTy).Contents (Elt F))
    (xw : (⟨S100000x128, .f32⟩ : BufTy).Contents (Elt F)) : (⟨S100000x128, .f32⟩ : BufTy).Contents (Elt F) :=
  Host.scatterAdd scatter_S100000x128_S740000x1_S740000x128_1_0_0_1
    (broadcastInDim S100000x128 ![] bcast_S_S100000x128 (constant S_ .f32 0x00000000#32)) (asSlot col)
    (mulf (broadcastInDim S740000x128 ![0, 1] bcast_S740000x1_S740000x128_0_1 (broadcastInDim S740000x1 ![0] bcast_S740000_S740000x1_0 wgt))
      (Host.gather gather_S100000x128_S740000x1_S740000x128_1_0_n_n_0_1_1128 xw (asStart row)))

/-- The pooling: every node's row added into the row of its graph. -/
def pool (batch : (⟨S100000, .i32⟩ : BufTy).Contents (Elt F)) (x : (⟨S100000x128, .f32⟩ : BufTy).Contents (Elt F)) :
    (⟨S512x128, .f32⟩ : BufTy).Contents (Elt F) :=
  Host.scatterAdd scatter_S512x128_S100000x1_S100000x128_1_0_0_1
    (broadcastInDim S512x128 ![] bcast_S_S512x128 (constant S_ .f32 0x00000000#32))
    (broadcastInDim S100000x1 ![0] bcast_S100000_S100000x1_0 batch) x

end Cert.KernelIdeal.Chain

end
-- ==== Proof.KernelFoldEntry.lean ====
/-
  The host operations before the first dense product, read as values.

  From the launch contents the program builds the two end-node vectors of the edge list (with self loops), the degree
  and its inverse square root, and the edge weights; the arguments are not written. Each buffer a later stage reads is
  stated here as its named function of the argument arrays.
-/
import proofs.«124265_j30657476559416_1_alg».proof.Proof.Gen.KernelIdeal.Frame
import proofs.«124265_j30657476559416_1_alg».proof.Proof.Chain
import Idealize.ShloMosaic.Lib.StableHlo.Run

noncomputable section

namespace Cert.KernelIdeal.FoldEntry

open Idealize.ShloMosaic Idealize.ShloMosaic.TcCoe Idealize.SL.Sem Idealize.ShloMosaic.StableHlo
open Cert.KernelIdeal Cert.KernelIdeal.Gen Cert.KernelIdeal.Chain

variable {F : FTy → Type} [FloatOps F]

-- the scatter-adds, gathers, the concatenation and the reciprocal square root stay folded: the equations below never
-- look inside them
attribute [local irreducible] Host.scatterAdd Host.gather concatenate Host.rsqrt

/-- Unroll the fold over a literal list of operations and compare: each operation's result is its function of the
    buffers it reads, and a buffer it does not write keeps its contents, all by computation on the literal references. -/
local macro "fold_rfl" : tactic => `(tactic| (simp only [after_cons, after_nil]; rfl))

variable (V : Valuation τ sig (Elt F))

/-- The buffer contents where the first pallas_call is entered, from contents `V` at launch. -/
abbrev entry : Valuation τ sig (Elt F) := after hostOps0_2 (after hostOps0_1 (after hostOps0 V))

/-- The source nodes of the edges. -/
theorem entry_row : entry V (Proc.devRef .tc main_v3) = sources (V (Proc.devRef .tc main_arg1)) := by fold_rfl

/-- The target nodes of the edges. -/
theorem entry_col : entry V (Proc.devRef .tc main_v6) = targets (V (Proc.devRef .tc main_arg1)) := by fold_rfl

/-- The edge weights `dinv[row] * dinv[col]`. -/
theorem entry_wgt : entry V (Proc.devRef .tc main_v29)
    = edgeWeight (sources (V (Proc.devRef .tc main_arg1))) (targets (V (Proc.devRef .tc main_arg1))) := by fold_rfl

/-- No operation before the first product writes `main_arg0`. -/
theorem entry_main_arg0 : entry V (Proc.devRef .tc main_arg0) = V (Proc.devRef .tc main_arg0) := by fold_rfl

/-- No operation before the first product writes `main_arg2`. -/
theorem entry_main_arg2 : entry V (Proc.devRef .tc main_arg2) = V (Proc.devRef .tc main_arg2) := by fold_rfl

/-- No operation before the first product writes `main_arg3`. -/
theorem entry_main_arg3 : entry V (Proc.devRef .tc main_arg3) = V (Proc.devRef .tc main_arg3) := by fold_rfl

/-- No operation before the first product writes `main_arg4`. -/
theorem entry_main_arg4 : entry V (Proc.devRef .tc main_arg4) = V (Proc.devRef .tc main_arg4) := by fold_rfl

/-- No operation before the first product writes `main_arg5`. -/
theorem entry_main_arg5 : entry V (Proc.devRef .tc main_arg5) = V (Proc.devRef .tc main_arg5) := by fold_rfl

end Cert.KernelIdeal.FoldEntry

end
-- ==== Proof.KernelFoldLayers.lean ====
/-
  The host operations after each dense product, read as values.

  After the first and the second product the program propagates the product along the edges (gather the source rows,
  scale by the edge weight, scatter-add into the target rows); after the third it propagates and then pools the nodes
  into graphs. The edge vectors, the edge weights and the remaining arguments pass through untouched.
-/
import proofs.«124265_j30657476559416_1_alg».proof.Proof.Gen.KernelIdeal.Frame
import proofs.«124265_j30657476559416_1_alg».proof.Proof.Chain
import Idealize.ShloMosaic.Lib.StableHlo.Run

noncomputable section

namespace Cert.KernelIdeal.FoldLayers

open Idealize.ShloMosaic Idealize.ShloMosaic.TcCoe Idealize.SL.Sem Idealize.ShloMosaic.StableHlo
open Cert.KernelIdeal Cert.KernelIdeal.Gen Cert.KernelIdeal.Chain

variable {F : FTy → Type} [FloatOps F]

-- the scatter-adds, gathers, the concatenation and the reciprocal square root stay folded: the equations below never
-- look inside them
attribute [local irreducible] Host.scatterAdd Host.gather concatenate Host.rsqrt

/-- Unroll the fold over a literal list of operations and compare: each operation's result is its function of the
    buffers it reads, and a buffer it does not write keeps its contents, all by computation on the literal references. -/
local macro "fold_rfl" : tactic => `(tactic| (simp only [after_cons, after_nil]; rfl))

variable (V : Valuation τ sig (Elt F))

/-! ## After the first product -/

/-- The first layer's output: the product (in `main_v30`) propagated along the edges. -/
theorem layer1_out : after hostOps1 V (Proc.devRef .tc main_v43)
    = propagate (V (Proc.devRef .tc main_v29)) (V (Proc.devRef .tc main_v3)) (V (Proc.devRef .tc main_v6)) (V (Proc.devRef .tc main_v30)) := by fold_rfl

theorem layer1_keeps_main_v3 : after hostOps1 V (Proc.devRef .tc main_v3) = V (Proc.devRef .tc main_v3) := by fold_rfl
theorem layer1_keeps_main_v6 : after hostOps1 V (Proc.devRef .tc main_v6) = V (Proc.devRef .tc main_v6) := by fold_rfl
theorem layer1_keeps_main_v29 : after hostOps1 V (Proc.devRef .tc main_v29) = V (Proc.devRef .tc main_v29) := by fold_rfl
theorem layer1_keeps_main_arg2 : after hostOps1 V (Proc.devRef .tc main_arg2) = V (Proc.devRef .tc main_arg2) := by fold_rfl
theorem layer1_keeps_main_arg4 : after hostOps1 V (Proc.devRef .tc main_arg4) = V (Proc.devRef .tc main_arg4) := by fold_rfl
theorem layer1_keeps_main_arg5 : after hostOps1 V (Proc.devRef .tc main_arg5) = V (Proc.devRef .tc main_arg5) := by fold_rfl

/-! ## After the second product -/

/-- The second layer's output: the product (in `main_v44`) propagated along the edges. -/
theorem layer2_out : after hostOps2 V (Proc.devRef .tc main_v57)
    = propagate (V (Proc.devRef .tc main_v29)) (V (Proc.devRef .tc main_v3)) (V (Proc.devRef .tc main_v6)) (V (Proc.devRef .tc main_v44)) := by fold_rfl

theorem layer2_keeps_main_v3 : after hostOps2 V (Proc.devRef .tc main_v3) = V (Proc.devRef .tc main_v3) := by fold_rfl
theorem layer2_keeps_main_v6 : after hostOps2 V (Proc.devRef .tc main_v6) = V (Proc.devRef .tc main_v6) := by fold_rfl
theorem layer2_keeps_main_v29 : after hostOps2 V (Proc.devRef .tc main_v29) = V (Proc.devRef .tc main_v29) := by fold_rfl
theorem layer2_keeps_main_arg2 : after hostOps2 V (Proc.devRef .tc main_arg2) = V (Proc.devRef .tc main_arg2) := by fold_rfl
theorem layer2_keeps_main_arg5 : after hostOps2 V (Proc.devRef .tc main_arg5) = V (Proc.devRef .tc main_arg5) := by fold_rfl

/-! ## After the third product -/

/-- The result: the third product (in `main_v58`) propagated along the edges, then pooled by graph. -/
theorem layer3_out : after hostOps3 V (Proc.devRef .tc main_v74)
    = pool (V (Proc.devRef .tc main_arg2)) (propagate (V (Proc.devRef .tc main_v29)) (V (Proc.devRef .tc main_v3)) (V (Proc.devRef .tc main_v6)) (V (Proc.devRef .tc main_v58))) := by fold_rfl

end Cert.KernelIdeal.FoldLayers

end
-- ==== Proof.Dense.lean ====
/-
  The dense product of a layer and the leaky rectifier, over the extended reals.

  `product x w` is the matrix product of a [100000, 128] array with a [128, 128] array, entry by entry the sum over the
  shared axis. A kernel that computes it 5000 rows at a time and a host `dot_general` over the whole array both
  produce exactly this function, whatever the order of the additions. `leaky` is `v ↦ v` for `v ≥ 0` and
  `v ↦ slope · v` below zero; testing `v > 0` instead gives the same function, because at `v = 0` the other
  branch is `slope · 0 = 0`.
-/
import Idealize.ShloMosaic.Lib.ValueIdx
import Idealize.ShloMosaic.PureOps.Ideal.Laws

noncomputable section

namespace Cert.Dense

open Idealize.ShloMosaic Idealize.ShloMosaic.ValueIdx

/-- Entry `(r, q)` of `x · w`: the sum over `k` of `x[r, k] * w[k, q]`. -/
def product (x : FVec Ideal ⟨2, ![100000, 128]⟩ .f32) (w : FVec Ideal ⟨2, ![128, 128]⟩ .f32) :
    FVec Ideal ⟨2, ![100000, 128]⟩ .f32 :=
  fun i => ∑ k : Fin 128, x (ix2 (n0 := 100000) (n1 := 128) (i 0) k) * w (ix2 (n0 := 128) (n1 := 128) k (i 1))

/-- The rectifier's slope below zero: the f32 nearest to 0.01. -/
def slope : EReal := Ideal.ofBits .f32 0x3C23D70A#32

/-- The leaky rectifier on one extended real. -/
def leaky (v : EReal) : EReal := if 0 ≤ v then v else slope * v

/-- The leaky rectifier on every entry. -/
def leakyAll (x : FVec Ideal ⟨2, ![100000, 128]⟩ .f32) : FVec Ideal ⟨2, ![100000, 128]⟩ .f32 := fun i => leaky (x i)

/-- Testing `0 < v` instead of `0 ≤ v` gives the same rectifier: the two tests differ only at `v = 0`, where
    `slope * 0 = 0`. -/
theorem leaky_of_strict (v : EReal) : (if 0 < v then v else slope * v) = leaky v := by
  unfold leaky
  by_cases h : 0 < v
  · rw [if_pos h, if_pos h.le]
  · rw [if_neg h]
    by_cases h0 : 0 ≤ v
    · have hv : v = 0 := le_antisymm (not_lt.mp h) h0
      rw [if_pos h0, hv, mul_zero]
    · rw [if_neg h0]

end Cert.Dense

end
-- ==== Proof.BlockProduct.lean ====
import proofs.«124265_j30657476559416_1_alg».proof.Proof.Gen.KernelIdeal.Skeleton
import proofs.«124265_j30657476559416_1_alg».proof.Proof.Dense
import Idealize.ShloMosaic.Lib.ValueIdx
import Idealize.ShloMosaic.Lib.Pipeline.Value
import Idealize.ShloMosaic.PureOps.Ideal.Laws

noncomputable section

namespace Cert.KernelIdeal.BlockProduct

open Idealize.ShloMosaic Idealize.ShloMosaic.ValueIdx Cert.KernelIdeal Cert.KernelIdeal.Gen

/-- The left operand's row coordinate at a contraction position is the output's row. -/
theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The left operand's column coordinate at a contraction position is that position. -/
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- The right operand's row coordinate at a contraction position is that position. -/
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- The right operand's column coordinate at a contraction position is the output's column. -/
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Over the extended reals the product of a [5000, 128] block with a [128, 128] array, accumulated into zero, is at
    entry `(p, q)` the sum over `k` of `x[p, k] * w[k, q]`. -/
theorem matmul_at {φ₁ φ₂ : FTy} (x : FVec Ideal S5000x128 φ₁) (w : FVec Ideal S128x128 φ₂) (p : Fin 5000) (q : Fin 128) :
    FloatOps.matmul dot_S5000x128_S128x128_S5000x128_1_0_0_1_n_n none x w (constant (F := Ideal) S5000x128 .f32 0x00000000#32) (ix2 p q)
      = ∑ k : Fin 128, x (ix2 p k) * w (ix2 k q) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The first layer's block: entry `(p, q)` of what the body stores is the sum over `k` of `x[p, k] * w[k, q]`
    (narrowing a float is the identity on the extended reals). -/
theorem pay0_at (x : Vec Ideal S5000x128 .f32) (w : Vec Ideal S128x128 .f32) (p : Fin 5000) (q : Fin 128) :
    k0_pay1 (F := Ideal) x w (ix2 p q) = ∑ k : Fin 128, x (ix2 p k) * w (ix2 k q) := by
  unfold k0_pay1
  exact matmul_at _ _ p q

/-- The second layer's block: the same sum (the body's reshape is to the block's own shape). -/
theorem pay1_at (x : Vec Ideal S5000x128 .f32) (w : Vec Ideal S128x128 .f32) (p : Fin 5000) (q : Fin 128) :
    k1_pay1 (F := Ideal) x w (ix2 p q) = ∑ k : Fin 128, x (ix2 p k) * w (ix2 k q) := by
  unfold k1_pay1
  refine (matmul_at _ _ p q).trans ?_
  simp only [shapeCast_self]
  rfl

/-- One entry of the rectified block: `v` where `v > 0`, `slope * v` elsewhere, is the leaky rectifier of `v`. -/
theorem rectified_at (v : EReal) :
    Scalar.select (FloatOps.cmpf (F := Ideal) (φ := .f32) .ogt v (Scalar.ofBits (F := Ideal) .f32 0x00000000#32)) v
      (FloatOps.mulf (F := Ideal) (φ := .f32) (Scalar.ofBits (F := Ideal) .f32 0x3C23D70A#32) v) = Cert.Dense.leaky v := by
  rw [← Cert.Dense.leaky_of_strict]
  show Scalar.select (Ideal.cmp .ogt v (Ideal.ofBits .f32 0x00000000#32)) v (Ideal.ofBits .f32 0x3C23D70A#32 * v) = _
  rw [Ideal.ofBits_zero_f32]
  unfold Ideal.cmp
  by_cases h : (0 : EReal) < v
  · rw [if_pos h]
    simp only [h, decide_true, BitVec.ofBool_true]
    exact select_one _ _
  · rw [if_neg h]
    simp only [h, decide_false, BitVec.ofBool_false]
    exact select_zero _ _

/-- The third layer's block: the body rectifies its input block entry by entry and then takes the same product. -/
theorem pay2_at (x : Vec Ideal S5000x128 .f32) (w : Vec Ideal S128x128 .f32) (p : Fin 5000) (q : Fin 128) :
    k2_pay1 (F := Ideal) x w (ix2 p q) = ∑ k : Fin 128, Cert.Dense.leaky (x (ix2 p k)) * w (ix2 k q) := by
  unfold k2_pay1
  refine (matmul_at _ _ p q).trans ?_
  refine Finset.sum_congr rfl fun k _ => ?_
  simp only [shapeCast_self]
  exact congrArg (· * w (ix2 k q)) (rectified_at (x (ix2 p k)))

end Cert.KernelIdeal.BlockProduct

end
-- ==== Proof.KernelDense0.lean ====
import proofs.«124265_j30657476559416_1_alg».proof.Proof.Gen.KernelIdeal.Frame
import proofs.«124265_j30657476559416_1_alg».proof.Proof.Dense
import proofs.«124265_j30657476559416_1_alg».proof.Proof.BlockProduct
import Idealize.ShloMosaic.Lib.Pipeline.Value

noncomputable section

namespace Cert.KernelIdeal.Region0

open Idealize.ShloMosaic Idealize.ShloMosaic.TcCoe Idealize.SL.Sem Cert.KernelIdeal Cert.KernelIdeal.Gen

section Blocks

open Idealize.ShloMosaic.ValueIdx

/-- The zero offsets of a whole-block access, as a constant function. -/
theorem hz : (![0, 0] : Fin 2 → Nat) = fun _ => 0 := funext fun a => by fin_cases a <;> rfl

/-- A product of two array entries read at equal indices. -/
theorem mul_read (X : FVec Ideal S100000x128 .f32) (Wt : FVec Ideal S128x128 .f32) {a a' : S100000x128.Idx} {b b' : S128x128.Idx}
    (ha : a = a') (hb : b = b') : X a * Wt b = X a' * Wt b' := by rw [ha, hb]

/-- The blocks' positions at every grid point: the input rows' block moves with the output's block and sits at
    column block zero, the weights' block is always the whole array, and the output's block is one of the twenty row
    blocks, at column block zero. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every one of the twenty row blocks is some grid point's output block. -/
theorem idx_onto : ∀ r : Fin 20, ∃ t : Fin cfg0.N, win0_2.index t = ![r.val, 0] :=
  (by decide +kernel : ∀ r : Fin 20, ∃ t : Fin grid0.N, win0_2.index t = ![r.val, 0])

/-- What grid point `t` writes back is block `t` of the whole-array product: row `p` of the block is row
    `5000 t + p` of the array on both sides, and the sum runs over the whole shared axis. -/
theorem flushed_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal) (Cert.Dense.product (V c main_arg0) (V c main_arg3)) := by
  show (cfg0.win 2).cut (grid0.coords t) ((dat0 (F := Ideal) V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  refine funext fun (j : S5000x128.Idx) => ?_
  obtain ⟨p, q, rfl⟩ : ∃ (p : Fin 5000) (q : Fin 128), j = ix2 p q := ⟨j 0, j 1, eq_ix2 j⟩
  refine (BlockProduct.pay0_at (iblk0 V c 0 t) (iblk0 V c 1 t) p q).trans ?_
  show _ = Cert.Dense.product (V c main_arg0) (V c main_arg3) (((cfg0.win 2).blk t).view.emb (ix2 p q))
  unfold Cert.Dense.product
  refine Finset.sum_congr rfl fun k _ => ?_
  have hx : ((cfg0.win 0).blk t).view.emb (ix2 p k)
      = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have hw : ((cfg0.win 1).blk t).view.emb (ix2 k q)
      = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  have h := mul_read (V c main_arg0) (V c main_arg3) hx hw
  exact h

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every index of the array is in the block of the point its row block names: row `r` is in row block `r / 5000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

end Blocks

/-- After the whole grid has run, the output array holds the product of the input array with the first layer's weights: every grid point writes
    back its block of that product, and the twenty blocks cover the array. -/
theorem final (V : (c : Dev nD) → (b : Ref sig .tc) → Buf (Elt Ideal) ((c : Thread nD τ).loc b)) (c : Dev nD) :
    (dat0 (F := Ideal) V c).arrAt 2 cfg0.N = Cert.Dense.product (V c main_arg0) (V c main_arg3) :=
  (dat0 (F := Ideal) V c).arrAt_eq_of_cover 2 (Cert.Dense.product (V c main_arg0) (V c main_arg3)) (fun t _ => flushed_eq V c t) cover

end Cert.KernelIdeal.Region0

end
-- ==== Proof.KernelDense1.lean ====
import proofs.«124265_j30657476559416_1_alg».proof.Proof.Gen.KernelIdeal.Frame
import proofs.«124265_j30657476559416_1_alg».proof.Proof.Dense
import proofs.«124265_j30657476559416_1_alg».proof.Proof.BlockProduct
import Idealize.ShloMosaic.Lib.Pipeline.Value

noncomputable section

namespace Cert.KernelIdeal.Region1

open Idealize.ShloMosaic Idealize.ShloMosaic.TcCoe Idealize.SL.Sem Cert.KernelIdeal Cert.KernelIdeal.Gen

section Blocks

open Idealize.ShloMosaic.ValueIdx

/-- The zero offsets of a whole-block access, as a constant function. -/
theorem hz : (![0, 0] : Fin 2 → Nat) = fun _ => 0 := funext fun a => by fin_cases a <;> rfl

/-- A product of two array entries read at equal indices. -/
theorem mul_read (X : FVec Ideal S100000x128 .f32) (Wt : FVec Ideal S128x128 .f32) {a a' : S100000x128.Idx} {b b' : S128x128.Idx}
    (ha : a = a') (hb : b = b') : X a * Wt b = X a' * Wt b' := by rw [ha, hb]

/-- The blocks' positions at every grid point: the input rows' block moves with the output's block and sits at
    column block zero, the weights' block is always the whole array, and the output's block is one of the twenty row
    blocks, at column block zero. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 19 :=
  (by decide +kernel : ∀ t : Fin grid1.N, _)

/-- Every one of the twenty row blocks is some grid point's output block. -/
theorem idx_onto : ∀ r : Fin 20, ∃ t : Fin cfg1.N, win1_2.index t = ![r.val, 0] :=
  (by decide +kernel : ∀ r : Fin 20, ∃ t : Fin grid1.N, win1_2.index t = ![r.val, 0])

/-- What grid point `t` writes back is block `t` of the whole-array product: row `p` of the block is row
    `5000 t + p` of the array on both sides, and the sum runs over the whole shared axis. -/
theorem flushed_eq (V : (c : Dev nD) → (b : Ref sig .tc) → Buf (Elt Ideal) ((c : Thread nD τ).loc b)) (c : Dev nD) (t : Fin cfg1.N) :
    (dat1 (F := Ideal) V c).flushed 2 t = ((cfg1.win 2).blk t).view.read (Elt Ideal) (Cert.Dense.product (V c main_v43) (V c main_arg4)) := by
  show (cfg1.win 2).cut (grid1.coords t) ((dat1 (F := Ideal) V c).after 2 t) = _
  rw [after1_2]
  unfold out1_2
  rw [View.canon_unit_zero hz]
  simp only [View.ld_unit_zero (S := S5000x128) hz, View.ld_unit_zero (S := S128x128) hz]
  obtain ⟨e0, e1, e2, e3, e4, e5⟩ := idx_facts t
  refine funext fun (j : S5000x128.Idx) => ?_
  obtain ⟨p, q, rfl⟩ : ∃ (p : Fin 5000) (q : Fin 128), j = ix2 p q := ⟨j 0, j 1, eq_ix2 j⟩
  refine (BlockProduct.pay1_at (iblk1 V c 0 t) (iblk1 V c 1 t) p q).trans ?_
  show _ = Cert.Dense.product (V c main_v43) (V c main_arg4) (((cfg1.win 2).blk t).view.emb (ix2 p q))
  unfold Cert.Dense.product
  refine Finset.sum_congr rfl fun k _ => ?_
  have hx : ((cfg1.win 0).blk t).view.emb (ix2 p k)
      = ix2 ((((cfg1.win 2).blk t).view.emb (ix2 p q)) 0) k := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * k.val = k.val; omega
  have hw : ((cfg1.win 1).blk t).view.emb (ix2 k q)
      = ix2 k ((((cfg1.win 2).blk t).view.emb (ix2 p q)) 1) := by
    funext a; apply Fin.ext
    match a with
    | ⟨0, _⟩ => show win1_1.index t (0 : Fin 2) * 128 + 1 * k.val = k.val; omega
    | ⟨1, _⟩ => show win1_1.index t (1 : Fin 2) * 128 + 1 * q.val = win1_2.index t (1 : Fin 2) * 128 + 1 * q.val; omega
  have h := mul_read (V c main_v43) (V c main_arg4) hx hw
  exact h

/-- An index of the array is in point `t`'s block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v44).slice (win1_2.rect t)).set ↔ _
  rw [View.set_slice_whole, Rect.mem_set_unit]
  exact Iff.rfl

/-- Every index of the array is in the block of the point its row block names: row `r` is in row block `r / 5000`. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

end Blocks

/-- After the whole grid has run, the output array holds the product of the second layer's input array with its weights: every grid point writes
    back its block of that product, and the twenty blocks cover the array. -/
theorem final (V : (c : Dev nD) → (b : Ref sig .tc) → Buf (Elt Ideal) ((c : Thread nD τ).loc b)) (c : Dev nD) :
    (dat1 (F := Ideal) V c).arrAt 2 cfg1.N = Cert.Dense.product (V c main_v43) (V c main_arg4) :=
  (dat1 (F := Ideal) V c).arrAt_eq_of_cover 2 (Cert.Dense.product (V c main_v43) (V c main_arg4)) (fun t _ => flushed_eq V c t) cover

end Cert.KernelIdeal.Region1

end
-- ==== Proof.KernelDense2.lean ====
import proofs.«124265_j30657476559416_1_alg».proof.Proof.Gen.KernelIdeal.Frame
import proofs.«124265_j30657476559416_1_alg».proof.Proof.Dense
import proofs.«124265_j30657476559416_1_alg».proof.Proof.BlockProduct
import Idealize.ShloMosaic.Lib.Pipeline.Value

noncomputable section

namespace Cert.KernelIdeal.Region2

open Idealize.ShloMosaic Idealize.ShloMosaic.TcCoe Idealize.SL.Sem Cert.KernelIdeal Cert.KernelIdeal.Gen

section Blocks

open Idealize.ShloMosaic.ValueIdx

/-- The zero offsets of a whole-block access, as a constant function. -/
theorem hz : (![0, 0] : Fin 2 → Nat) = fun _ => 0 := funext fun a => by fin_cases a <;> rfl

/-- A product of two array entries read at equal indices. -/
theorem mul_read (X : FVec Ideal S100000x128 .f32) (Wt : FVec Ideal S128x128 .f32) {a a' : S100000x128.Idx} {b b' : S128x128.Idx}
    (ha : a = a') (hb : b = b') : X a * Wt b = X a' * Wt b' := by rw [ha, hb]

/-- The blocks' positions at every grid point: the input rows' block moves with the output's block and sits at
    column block zero, the weights' block is always the whole array, and the output's block is one of the twenty row
    blocks, at column block zero. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 19 :=
  (by decide +kernel : ∀ t : Fin grid2.N, _)

/-- Every one of the twenty row blocks is some grid point's output block. -/
theorem idx_onto : ∀ r : Fin 20, ∃ t : Fin cfg2.N, win2_2.index t = ![r.val, 0] :=
  (by decide +kernel : ∀ r : Fin 20, ∃ t : Fin grid2.N, win2_2.index t = ![r.val, 0])

/-- What grid point `t` writes back is block `t` of the whole-array product: row `p` of the block is row
    `5000 t + p` of the array on both sides, and the sum runs over the whole shared axis. -/
theorem flushed_eq (V : (c : Dev nD) → (b : Ref sig .tc) → Buf (Elt Ideal) ((c : Thread nD τ).loc b)) (c : Dev nD) (t : Fin cfg2.N) :
    (dat2 (F := Ideal) V c).flushed 2 t = ((cfg2.win 2).blk t).view.read (Elt Ideal) (Cert.Dense.product (Cert.Dense.leakyAll (V c main_v57)) (V c main_arg5)) := by
  show (cfg2.win 2).cut (grid2.coords t) ((dat2 (F := Ideal) V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx_facts t
  refine funext fun (j : S5000x128.Idx) => ?_
  obtain ⟨p, q, rfl⟩ : ∃ (p : Fin 5000) (q : Fin 128), j = ix2 p q := ⟨j 0, j 1, eq_ix2 j⟩
  refine (BlockProduct.pay2_at (iblk2 V c 0 t) (iblk2 V c 1 t) p q).trans ?_
  show _ = Cert.Dense.product (Cert.Dense.leakyAll (V c main_v57)) (V c main_arg5) (((cfg2.win 2).blk t).view.emb (ix2 p q))
  unfold Cert.Dense.product
  refine Finset.sum_congr rfl fun k _ => ?_
  have hx : ((cfg2.win 0).blk t).view.emb (ix2 p k)
      = ix2 ((((cfg2.win 2).blk t).view.emb (ix2 p q)) 0) k := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  have hw : ((cfg2.win 1).blk t).view.emb (ix2 k q)
      = ix2 k ((((cfg2.win 2).blk t).view.emb (ix2 p q)) 1) := by
    funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  have h := mul_read (Cert.Dense.leakyAll (V c main_v57)) (V c main_arg5) hx hw
  exact h

/-- An index of the array is in point `t`'s block iff each coordinate is in the block's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v58).slice (win2_2.rect t)).set ↔ _
  rw [View.set_slice_whole, Rect.mem_set_unit]
  exact Iff.rfl

/-- Every index of the array is in the block of the point its row block names: row `r` is in row block `r / 5000`. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

end Blocks

/-- After the whole grid has run, the output array holds the product of the rectified third-layer input array with its weights: every grid point writes
    back its block of that product, and the twenty blocks cover the array. -/
theorem final (V : (c : Dev nD) → (b : Ref sig .tc) → Buf (Elt Ideal) ((c : Thread nD τ).loc b)) (c : Dev nD) :
    (dat2 (F := Ideal) V c).arrAt 2 cfg2.N = Cert.Dense.product (Cert.Dense.leakyAll (V c main_v57)) (V c main_arg5) :=
  (dat2 (F := Ideal) V c).arrAt_eq_of_cover 2 (Cert.Dense.product (Cert.Dense.leakyAll (V c main_v57)) (V c main_arg5)) (fun t _ => flushed_eq V c t) cover

end Cert.KernelIdeal.Region2

end
-- ==== Proof.Spec.lean ====
/-
  What the kernel's program computes, as one function of its six arguments, at the ideal values.

  Three graph-convolution layers and a pooling: each layer is the dense product of the running node features with
  that layer's weight matrix, propagated along the edges with the symmetric degree normalisation; before the third
  product the features pass through the leaky rectifier.
-/
import proofs.«124265_j30657476559416_1_alg».proof.Proof.Chain
import proofs.«124265_j30657476559416_1_alg».proof.Proof.Dense

noncomputable section

namespace Cert.KernelIdeal.Spec

open Idealize.ShloMosaic Cert.KernelIdeal Cert.KernelIdeal.Chain Cert.Dense

/-- One layer's propagation along the edge list `ei`, with the edge weights that edge list determines. -/
def spread (ei : (⟨S2x640000, .i32⟩ : BufTy).Contents (Elt Ideal)) (xw : (⟨S100000x128, .f32⟩ : BufTy).Contents (Elt Ideal)) :
    (⟨S100000x128, .f32⟩ : BufTy).Contents (Elt Ideal) :=
  propagate (F := Ideal) (edgeWeight (sources ei) (targets ei)) (sources ei) (targets ei) xw

/-- The whole forward pass. -/
def result (x : (⟨S100000x128, .f32⟩ : BufTy).Contents (Elt Ideal)) (ei : (⟨S2x640000, .i32⟩ : BufTy).Contents (Elt Ideal))
    (batch : (⟨S100000, .i32⟩ : BufTy).Contents (Elt Ideal)) (w0 w1 w2 : (⟨S128x128, .f32⟩ : BufTy).Contents (Elt Ideal)) :
    (⟨S512x128, .f32⟩ : BufTy).Contents (Elt Ideal) :=
  pool (F := Ideal) batch (spread ei (product (leakyAll (spread ei (product (spread ei (product x w0)) w1))) w2))

end Cert.KernelIdeal.Spec

end
-- ==== Proof.KernelFold.lean ====
/-
  The kernel program's result as one function of its arguments, at the ideal values.

  The run's buffer contents are a fold from the launch memory through the host stretches and the three regions.
  Walking that fold boundary by boundary: the edge vectors, the edge weights and the arguments still to be used are
  carried along unchanged, each region leaves the dense product of what it read, and each host stretch after a region
  propagates that product along the edges. At the last boundary the result buffer holds the pooled third layer.
-/
import proofs.«124265_j30657476559416_1_alg».proof.Proof.KernelFoldEntry
import proofs.«124265_j30657476559416_1_alg».proof.Proof.KernelFoldLayers
import proofs.«124265_j30657476559416_1_alg».proof.Proof.KernelDense0
import proofs.«124265_j30657476559416_1_alg».proof.Proof.KernelDense1
import proofs.«124265_j30657476559416_1_alg».proof.Proof.KernelDense2
import proofs.«124265_j30657476559416_1_alg».proof.Proof.Spec

noncomputable section

namespace Cert.KernelIdeal.Fold

open Idealize.ShloMosaic Idealize.ShloMosaic.TcCoe Idealize.SL.Sem Idealize.ShloMosaic.StableHlo
open Cert.KernelIdeal Cert.KernelIdeal.Gen Cert.KernelIdeal.Chain Cert.Dense

variable (m : (ℓ : Loc nD τ sig) → Buf (Elt Ideal) ℓ) (ρ : Dev nD → PrngReg) (c : Dev nD)

/-! ## The names of what is carried -/

/-- The source nodes, the target nodes and the weights of the edges, from the edge-list argument. -/
abbrev row := sources (F := Ideal) (m ((c : Thread nD τ).loc main_arg1))
abbrev col := targets (F := Ideal) (m ((c : Thread nD τ).loc main_arg1))
abbrev wgt := edgeWeight (F := Ideal) (row m c) (col m c)

/-- The node features after the first, the second and the third layer. -/
abbrev h1 := propagate (F := Ideal) (wgt m c) (row m c) (col m c) (product (m ((c : Thread nD τ).loc main_arg0)) (m ((c : Thread nD τ).loc main_arg3)))
abbrev h2 := propagate (F := Ideal) (wgt m c) (row m c) (col m c) (product (h1 m c) (m ((c : Thread nD τ).loc main_arg4)))
abbrev h3 := propagate (F := Ideal) (wgt m c) (row m c) (col m c) (product (leakyAll (h2 m c)) (m ((c : Thread nD τ).loc main_arg5)))

/-! ## Where the first region is entered -/

theorem at3_row : W3 m ρ c (Proc.devRef .tc main_v3) = row m c := FoldEntry.entry_row (W0 m ρ c)
theorem at3_col : W3 m ρ c (Proc.devRef .tc main_v6) = col m c := FoldEntry.entry_col (W0 m ρ c)
theorem at3_wgt : W3 m ρ c (Proc.devRef .tc main_v29) = wgt m c := FoldEntry.entry_wgt (W0 m ρ c)
theorem at3_arg0 : W3 m ρ c (Proc.devRef .tc main_arg0) = (m ((c : Thread nD τ).loc main_arg0)) := FoldEntry.entry_main_arg0 (W0 m ρ c)
theorem at3_arg2 : W3 m ρ c (Proc.devRef .tc main_arg2) = (m ((c : Thread nD τ).loc main_arg2)) := FoldEntry.entry_main_arg2 (W0 m ρ c)
theorem at3_arg3 : W3 m ρ c (Proc.devRef .tc main_arg3) = (m ((c : Thread nD τ).loc main_arg3)) := FoldEntry.entry_main_arg3 (W0 m ρ c)
theorem at3_arg4 : W3 m ρ c (Proc.devRef .tc main_arg4) = (m ((c : Thread nD τ).loc main_arg4)) := FoldEntry.entry_main_arg4 (W0 m ρ c)
theorem at3_arg5 : W3 m ρ c (Proc.devRef .tc main_arg5) = (m ((c : Thread nD τ).loc main_arg5)) := FoldEntry.entry_main_arg5 (W0 m ρ c)

/-! ## After the first region: its output array is the first product; what it does not write is as entered -/

theorem at4_row : W4 m ρ c (Proc.devRef .tc main_v3) = row m c := (W4_of_ne m ρ c main_v3 (by decide)).trans (at3_row m ρ c)
theorem at4_col : W4 m ρ c (Proc.devRef .tc main_v6) = col m c := (W4_of_ne m ρ c main_v6 (by decide)).trans (at3_col m ρ c)
theorem at4_wgt : W4 m ρ c (Proc.devRef .tc main_v29) = wgt m c := (W4_of_ne m ρ c main_v29 (by decide)).trans (at3_wgt m ρ c)
theorem at4_arg2 : W4 m ρ c (Proc.devRef .tc main_arg2) = (m ((c : Thread nD τ).loc main_arg2)) := (W4_of_ne m ρ c main_arg2 (by decide)).trans (at3_arg2 m ρ c)
theorem at4_arg4 : W4 m ρ c (Proc.devRef .tc main_arg4) = (m ((c : Thread nD τ).loc main_arg4)) := (W4_of_ne m ρ c main_arg4 (by decide)).trans (at3_arg4 m ρ c)
theorem at4_arg5 : W4 m ρ c (Proc.devRef .tc main_arg5) = (m ((c : Thread nD τ).loc main_arg5)) := (W4_of_ne m ρ c main_arg5 (by decide)).trans (at3_arg5 m ρ c)
theorem at4_prod : W4 m ρ c (Proc.devRef .tc main_v30) = product (m ((c : Thread nD τ).loc main_arg0)) (m ((c : Thread nD τ).loc main_arg3)) :=
  (W4_arr m ρ c 2).trans ((Region0.final (V3 m ρ) c).trans
    (congrArg₂ product (at3_arg0 m ρ c) (at3_arg3 m ρ c)))

/-! ## After the first propagation -/

theorem at5_row : W5 m ρ c (Proc.devRef .tc main_v3) = row m c := (FoldLayers.layer1_keeps_main_v3 (W4 m ρ c)).trans (at4_row m ρ c)
theorem at5_col : W5 m ρ c (Proc.devRef .tc main_v6) = col m c := (FoldLayers.layer1_keeps_main_v6 (W4 m ρ c)).trans (at4_col m ρ c)
theorem at5_wgt : W5 m ρ c (Proc.devRef .tc main_v29) = wgt m c := (FoldLayers.layer1_keeps_main_v29 (W4 m ρ c)).trans (at4_wgt m ρ c)
theorem at5_arg2 : W5 m ρ c (Proc.devRef .tc main_arg2) = (m ((c : Thread nD τ).loc main_arg2)) := (FoldLayers.layer1_keeps_main_arg2 (W4 m ρ c)).trans (at4_arg2 m ρ c)
theorem at5_arg4 : W5 m ρ c (Proc.devRef .tc main_arg4) = (m ((c : Thread nD τ).loc main_arg4)) := (FoldLayers.layer1_keeps_main_arg4 (W4 m ρ c)).trans (at4_arg4 m ρ c)
theorem at5_arg5 : W5 m ρ c (Proc.devRef .tc main_arg5) = (m ((c : Thread nD τ).loc main_arg5)) := (FoldLayers.layer1_keeps_main_arg5 (W4 m ρ c)).trans (at4_arg5 m ρ c)
theorem at5_h1 : W5 m ρ c (Proc.devRef .tc main_v43) = h1 m c := by
  refine (FoldLayers.layer1_out (W4 m ρ c)).trans ?_
  rw [at4_wgt m ρ c, at4_row m ρ c, at4_col m ρ c, at4_prod m ρ c]

/-! ## After the second region -/

theorem at6_row : W6 m ρ c (Proc.devRef .tc main_v3) = row m c := (W6_of_ne m ρ c main_v3 (by decide)).trans (at5_row m ρ c)
theorem at6_col : W6 m ρ c (Proc.devRef .tc main_v6) = col m c := (W6_of_ne m ρ c main_v6 (by decide)).trans (at5_col m ρ c)
theorem at6_wgt : W6 m ρ c (Proc.devRef .tc main_v29) = wgt m c := (W6_of_ne m ρ c main_v29 (by decide)).trans (at5_wgt m ρ c)
theorem at6_arg2 : W6 m ρ c (Proc.devRef .tc main_arg2) = (m ((c : Thread nD τ).loc main_arg2)) := (W6_of_ne m ρ c main_arg2 (by decide)).trans (at5_arg2 m ρ c)
theorem at6_arg5 : W6 m ρ c (Proc.devRef .tc main_arg5) = (m ((c : Thread nD τ).loc main_arg5)) := (W6_of_ne m ρ c main_arg5 (by decide)).trans (at5_arg5 m ρ c)
theorem at6_prod : W6 m ρ c (Proc.devRef .tc main_v44) = product (h1 m c) (m ((c : Thread nD τ).loc main_arg4)) :=
  (W6_arr m ρ c 2).trans ((Region1.final (V5 m ρ) c).trans
    (congrArg₂ product (at5_h1 m ρ c) (at5_arg4 m ρ c)))

/-! ## After the second propagation -/

theorem at7_row : W7 m ρ c (Proc.devRef .tc main_v3) = row m c := (FoldLayers.layer2_keeps_main_v3 (W6 m ρ c)).trans (at6_row m ρ c)
theorem at7_col : W7 m ρ c (Proc.devRef .tc main_v6) = col m c := (FoldLayers.layer2_keeps_main_v6 (W6 m ρ c)).trans (at6_col m ρ c)
theorem at7_wgt : W7 m ρ c (Proc.devRef .tc main_v29) = wgt m c := (FoldLayers.layer2_keeps_main_v29 (W6 m ρ c)).trans (at6_wgt m ρ c)
theorem at7_arg2 : W7 m ρ c (Proc.devRef .tc main_arg2) = (m ((c : Thread nD τ).loc main_arg2)) := (FoldLayers.layer2_keeps_main_arg2 (W6 m ρ c)).trans (at6_arg2 m ρ c)
theorem at7_arg5 : W7 m ρ c (Proc.devRef .tc main_arg5) = (m ((c : Thread nD τ).loc main_arg5)) := (FoldLayers.layer2_keeps_main_arg5 (W6 m ρ c)).trans (at6_arg5 m ρ c)
theorem at7_h2 : W7 m ρ c (Proc.devRef .tc main_v57) = h2 m c := by
  refine (FoldLayers.layer2_out (W6 m ρ c)).trans ?_
  rw [at6_wgt m ρ c, at6_row m ρ c, at6_col m ρ c, at6_prod m ρ c]

/-! ## After the third region: the rectified features times the third weight matrix -/

theorem at8_row : W8 m ρ c (Proc.devRef .tc main_v3) = row m c := (W8_of_ne m ρ c main_v3 (by decide)).trans (at7_row m ρ c)
theorem at8_col : W8 m ρ c (Proc.devRef .tc main_v6) = col m c := (W8_of_ne m ρ c main_v6 (by decide)).trans (at7_col m ρ c)
theorem at8_wgt : W8 m ρ c (Proc.devRef .tc main_v29) = wgt m c := (W8_of_ne m ρ c main_v29 (by decide)).trans (at7_wgt m ρ c)
theorem at8_arg2 : W8 m ρ c (Proc.devRef .tc main_arg2) = (m ((c : Thread nD τ).loc main_arg2)) := (W8_of_ne m ρ c main_arg2 (by decide)).trans (at7_arg2 m ρ c)
theorem at8_prod : W8 m ρ c (Proc.devRef .tc main_v58) = product (leakyAll (h2 m c)) (m ((c : Thread nD τ).loc main_arg5)) :=
  (W8_arr m ρ c 2).trans ((Region2.final (V7 m ρ) c).trans
    (congrArg₂ (fun a b => product (leakyAll a) b) (at7_h2 m ρ c) (at7_arg5 m ρ c)))

/-! ## The result -/

/-- At the last boundary the result buffer holds the third layer's features pooled by graph. -/
theorem at9_out : W9 m ρ c (Proc.devRef .tc main_v74) = pool (F := Ideal) (m ((c : Thread nD τ).loc main_arg2)) (h3 m c) := by
  refine (FoldLayers.layer3_out (W8 m ρ c)).trans ?_
  rw [at8_arg2 m ρ c, at8_wgt m ρ c, at8_row m ρ c, at8_col m ρ c, at8_prod m ρ c]

/-- The same as the forward pass's named function of the six arguments. -/
theorem result : W9 m ρ c (Proc.devRef .tc main_v74)
    = Spec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  at9_out m ρ c

end Cert.KernelIdeal.Fold

end
-- ==== Proof.RefSpec.lean ====
/-
  What the reference computes, as one function of its six arguments: the same three layers and pooling, with
  each dense product the host's `dot_general` over the whole array and the rectifier as jax spells it
  (`x ≥ 0` selects `x`, else `slope · x`). The host operations around the products are the kernel program's own,
  so they are the same named functions.
-/
import proofs.«124265_j30657476559416_1_alg».proof.Proof.Gen.ReferenceIdeal
import proofs.«124265_j30657476559416_1_alg».proof.Proof.Chain

noncomputable section

namespace Cert.ReferenceIdeal.Spec

open Idealize.ShloMosaic Cert.ReferenceIdeal
open Cert.ReferenceIdeal.Facts₀

variable {F : FTy → Type} [FloatOps F]

/-- A layer's dense product on the host. -/
def dense (x : (⟨S100000x128, .f32⟩ : BufTy).Contents (Elt F)) (w : (⟨S128x128, .f32⟩ : BufTy).Contents (Elt F)) :
    (⟨S100000x128, .f32⟩ : BufTy).Contents (Elt F) :=
  Host.dotGeneral dot_S100000x128_S128x128_S100000x128_1_0_0_1_n_n none x w

/-- The leaky rectifier as the reference applies it. -/
def rectify (x : (⟨S100000x128, .f32⟩ : BufTy).Contents (Elt F)) : (⟨S100000x128, .f32⟩ : BufTy).Contents (Elt F) :=
  select (cmpf .oge x (broadcastInDim S100000x128 ![] bcast_S_S100000x128 (constant S_ .f32 0x00000000#32))) x
    (mulf (broadcastInDim S100000x128 ![] bcast_S_S100000x128 (id (constant S_ .f32 0x3C23D70A#32))) x)

/-- One layer's propagation along the edge list. -/
def spread (ei : (⟨S2x640000, .i32⟩ : BufTy).Contents (Elt F)) (xw : (⟨S100000x128, .f32⟩ : BufTy).Contents (Elt F)) :
    (⟨S100000x128, .f32⟩ : BufTy).Contents (Elt F) :=
  Cert.KernelIdeal.Chain.propagate (F := F)
    (Cert.KernelIdeal.Chain.edgeWeight (Cert.KernelIdeal.Chain.sources ei) (Cert.KernelIdeal.Chain.targets ei))
    (Cert.KernelIdeal.Chain.sources ei) (Cert.KernelIdeal.Chain.targets ei) xw

/-- The whole forward pass. -/
def result (x : (⟨S100000x128, .f32⟩ : BufTy).Contents (Elt F)) (ei : (⟨S2x640000, .i32⟩ : BufTy).Contents (Elt F))
    (batch : (⟨S100000, .i32⟩ : BufTy).Contents (Elt F)) (w0 w1 w2 : (⟨S128x128, .f32⟩ : BufTy).Contents (Elt F)) :
    (⟨S512x128, .f32⟩ : BufTy).Contents (Elt F) :=
  Cert.KernelIdeal.Chain.pool (F := F) batch (spread ei (dense (rectify (spread ei (dense (spread ei (dense x w0)) w1))) w2))

end Cert.ReferenceIdeal.Spec

end
-- ==== Proof.RefOps.lean ====
/-
  The reference's @main as one straight line of host operations.

  @main comes as three consecutive windows; four of its statements are calls of module-local functions
  (the two-way selection `where` three times, the leaky rectifier once, which itself calls a selection). Each
  window is written here as the list of its operations, a callee's operations standing at its call site over
  that call's own buffers, and @main is shown to be the sequence of the three lists one after the other.
-/
import proofs.«124265_j30657476559416_1_alg».proof.Proof.RefSpec
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first window: the edge list with self loops, the first dense product, the degrees and their inverse square
    roots, the edge weights, the first propagation, the second dense product, and the constants of the next degree. -/
abbrev ops0 : List (HloOp τ sig (Elt F)) :=
  [ nullary main_v0 (iotaInDim S100000 32 0),
    unary main_arg1 main_v1 (extractStridedSlice S1x640000 ![0, 0] · slices_S2x640000_S1x640000_0_0),
    reshape main_v1 main_v2 rfl shapeCasts_S1x640000_S640000,
    binary main_v2 main_v0 main_v3 (fun a b => concatenate S740000 0 [⟨S640000, a⟩, ⟨S100000, b⟩] concatenates_S640000_S100000_S740000_d0),
    unary main_arg1 main_v4 (extractStridedSlice S1x640000 ![1, 0] · slices_S2x640000_S1x640000_1_0),
    reshape main_v4 main_v5 rfl shapeCasts_S1x640000_S640000,
    binary main_v5 main_v0 main_v6 (fun a b => concatenate S740000 0 [⟨S640000, a⟩, ⟨S100000, b⟩] concatenates_S640000_S100000_S740000_d0),
    binary main_arg0 main_arg3 main_v7 (fun l r => Host.dotGeneral dot_S100000x128_S128x128_S100000x128_1_0_0_1_n_n none l r),
    nullary main_cst (constant S_ .f32 0x3F800000#32),
    unary main_cst main_v8 (broadcastInDim S740000 ![] bcast_S_S740000),
    nullary main_cst_0 (constant S_ .f32 0x00000000#32),
    unary main_cst_0 main_v9 (broadcastInDim S100000 ![] bcast_S_S100000),
    unary main_v6 main_v10 (broadcastInDim S740000x1 ![0] bcast_S740000_S740000x1_0),
    ternary main_v9 main_v10 main_v8 main_v11 (fun x i u => Host.scatterAdd scatter_S100000_S740000x1_S740000_n_0_0_1 x i u),
    nullary main_cst_1 (constant S_ .f32 0x00000000#32),
    unary main_cst_1 main_v12 (broadcastInDim S100000 ![] bcast_S_S100000),
    binary main_v11 main_v12 main_v13 (cmpf .ogt),
    unary main_v11 main_v14 Host.rsqrt,
    nullary main_cst_2 (constant S_ .f32 0x00000000#32),
    TRef.unary (.of main_cst_2 : TRef sig ⟨S_, .f32⟩) main_call0.v0 id,
    TRef.unary main_call0.v0 main_call0.v1 (broadcastInDim S100000 ![] bcast_S_S100000),
    TRef.ternary (.of main_v13 : TRef sig ⟨S100000, .i1⟩) (.of main_v14 : TRef sig ⟨S100000, .f32⟩) main_call0.v1 main_call0.v2 select,
    nullary main_c (constantI S_ 32 0#32),
    unary main_c main_v16 (broadcastInDim S740000 ![] bcast_S_S740000),
    binary main_v3 main_v16 main_v17 (cmpi .slt),
    nullary main_c_3 (constantI S_ 32 100000#32),
    unary main_c_3 main_v18 (broadcastInDim S740000 ![] bcast_S_S740000),
    binary main_v3 main_v18 main_v19 addi,
    ternary main_v17 main_v19 main_v3 main_v20 select,
    unary main_v20 main_v21 (broadcastInDim S740000x1 ![0] bcast_S740000_S740000x1_0),
    binary main_v15 main_v21 main_v22 (fun x i => Host.gather gather_S100000_S740000x1_S740000_n_0_n_n_0_1_1 x i),
    nullary main_c_4 (constantI S_ 32 0#32),
    unary main_c_4 main_v23 (broadcastInDim S740000 ![] bcast_S_S740000),
    binary main_v6 main_v23 main_v24 (cmpi .slt),
    nullary main_c_5 (constantI S_ 32 100000#32),
    unary main_c_5 main_v25 (broadcastInDim S740000 ![] bcast_S_S740000),
    binary main_v6 main_v25 main_v26 addi,
    ternary main_v24 main_v26 main_v6 main_v27 select,
    unary main_v27 main_v28 (broadcastInDim S740000x1 ![0] bcast_S740000_S740000x1_0),
    binary main_v15 main_v28 main_v29 (fun x i => Host.gather gather_S100000_S740000x1_S740000_n_0_n_n_0_1_1 x i),
    binary main_v22 main_v29 main_v30 mulf,
    unary main_v30 main_v31 (broadcastInDim S740000x1 ![0] bcast_S740000_S740000x1_0),
    nullary main_c_6 (constantI S_ 32 0#32),
    unary main_c_6 main_v32 (broadcastInDim S740000 ![] bcast_S_S740000),
    binary main_v3 main_v32 main_v33 (cmpi .slt),
    nullary main_c_7 (constantI S_ 32 100000#32),
    unary main_c_7 main_v34 (broadcastInDim S740000 ![] bcast_S_S740000),
    binary main_v3 main_v34 main_v35 addi,
    ternary main_v33 main_v35 main_v3 main_v36 select,
    unary main_v36 main_v37 (broadcastInDim S740000x1 ![0] bcast_S740000_S740000x1_0),
    binary main_v7 main_v37 main_v38 (fun x i => Host.gather gather_S100000x128_S740000x1_S740000x128_1_0_n_n_0_1_1128 x i),
    unary main_v31 main_v39 (broadcastInDim S740000x128 ![0, 1] bcast_S740000x1_S740000x128_0_1),
    binary main_v39 main_v38 main_v40 mulf,
    nullary main_cst_8 (constant S_ .f32 0x00000000#32),
    unary main_cst_8 main_v41 (broadcastInDim S100000x128 ![] bcast_S_S100000x128),
    unary main_v6 main_v42 (broadcastInDim S740000x1 ![0] bcast_S740000_S740000x1_0),
    ternary main_v41 main_v42 main_v40 main_v43 (fun x i u => Host.scatterAdd scatter_S100000x128_S740000x1_S740000x128_1_0_0_1 x i u),
    binary main_v43 main_arg4 main_v44 (fun l r => Host.dotGeneral dot_S100000x128_S128x128_S100000x128_1_0_0_1_n_n none l r),
    nullary main_cst_9 (constant S_ .f32 0x3F800000#32),
    unary main_cst_9 main_v45 (broadcastInDim S740000 ![] bcast_S_S740000),
    nullary main_cst_10 (constant S_ .f32 0x00000000#32),
    unary main_cst_10 main_v46 (broadcastInDim S100000 ![] bcast_S_S100000) ]

/-- Every operation of the first window touches the device's own buffers only. -/
theorem ops0_sub : (ops0 : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., binary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub ..,
    nullary_bufs_sub .., unary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., nullary_bufs_sub ..,
    unary_bufs_sub .., unary_bufs_sub .., ternary_bufs_sub .., binary_bufs_sub .., nullary_bufs_sub .., unary_bufs_sub ..,
    nullary_bufs_sub .., unary_bufs_sub ..⟩

/-- No operation of the first window allocates a buffer: each determines its result. -/
theorem ops0_fresh : (ops0 : List (HloOp τ sig (Elt F))).Forall fun op => op.fresh = ∅ := by
  simp only [List.Forall]; repeat' constructor

set_option maxRecDepth 4096 in
/-- The first window is the sequence of its operations: the selection's body unfolded at its call, sequencing
    reassociated, the two sides are the same chain of steps. -/
theorem main_part0_eq (c : Dev nD) : main_part0 (F := F) c = seq ops0 := by
  simp only [main_part0, fn_where.body, seq, bind_assoc, pure_bind]
  rfl

/-- The second window: the second layer's degrees, inverse square roots, edge weights and propagation, the leaky
    rectifier, the third dense product, and the third layer's degrees and inverse square roots. -/
abbrev ops1 : List (HloOp τ sig (Elt F)) :=
  [ unary main_v6 main_v47 (broadcastInDim S740000x1 ![0] bcast_S740000_S740000x1_0),
    ternary main_v46 main_v47 main_v45 main_v48 (fun x i u => Host.scatterAdd scatter_S100000_S740000x1_S740000_n_0_0_1 x i u),
    nullary main_cst_11 (constant S_ .f32 0x00000000#32),
    unary main_cst_11 main_v49 (broadcastInDim S100000 ![] bcast_S_S100000),
    binary main_v48 main_v49 main_v50 (cmpf .ogt),
    unary main_v48 main_v51 Host.rsqrt,
    nullary main_cst_12 (constant S_ .f32 0x00000000#32),
    TRef.unary (.of main_cst_12 : TRef sig ⟨S_, .f32⟩) main_call1.v0 id,
    TRef.unary main_call1.v0 main_call1.v1 (broadcastInDim S100000 ![] bcast_S_S100000),
    TRef.ternary (.of main_v50 : TRef sig ⟨S100000, .i1⟩) (.of main_v51 : TRef sig ⟨S100000, .f32⟩) main_call1.v1 main_call1.v2 select,
    nullary main_c_13 (constantI S_ 32 0#32),
    unary main_c_13 main_v53 (broadcastInDim S740000 ![] bcast_S_S740000),
    binary main_v3 main_v53 main_v54 (cmpi .slt),
    nullary main_c_14 (constantI S_ 32 100000#32),
    unary main_c_14 main_v55 (broadcastInDim S740000 ![] bcast_S_S740000),
    binary main_v3 main_v55 main_v56 addi,
    ternary main_v54 main_v56 main_v3 main_v57 select,
    unary main_v57 main_v58 (broadcastInDim S740000x1 ![0] bcast_S740000_S740000x1_0),
    binary main_v52 main_v58 main_v59 (fun x i => Host.gather gather_S100000_S740000x1_S740000_n_0_n_n_0_1_1 x i),
    nullary main_c_15 (constantI S_ 32 0#32),
    unary main_c_15 main_v60 (broadcastInDim S740000 ![] bcast_S_S740000),
    binary main_v6 main_v60 main_v61 (cmpi .slt),
    nullary main_c_16 (constantI S_ 32 100000#32),
    unary main_c_16 main_v62 (broadcastInDim S740000 ![] bcast_S_S740000),
    binary main_v6 main_v62 main_v63 addi,
    ternary main_v61 main_v63 main_v6 main_v64 select,
    unary main_v64 main_v65 (broadcastInDim S740000x1 ![0] bcast_S740000_S740000x1_0),
    binary main_v52 main_v65 main_v66 (fun x i => Host.gather gather_S100000_S740000x1_S740000_n_0_n_n_0_1_1 x i),
    binary main_v59 main_v66 main_v67 mulf,
    unary main_v67 main_v68 (broadcastInDim S740000x1 ![0] bcast_S740000_S740000x1_0),
    nullary main_c_17 (constantI S_ 32 0#32),
    unary main_c_17 main_v69 (broadcastInDim S740000 ![] bcast_S_S740000),
    binary main_v3 main_v69 main_v70 (cmpi .slt),
    nullary main_c_18 (constantI S_ 32 100000#32),
    unary main_c_18 main_v71 (broadcastInDim S740000 ![] bcast_S_S740000),
    binary main_v3 main_v71 main_v72 addi,
    ternary main_v70 main_v72 main_v3 main_v73 select,
    unary main_v73 main_v74 (broadcastInDim S740000x1 ![0] bcast_S740000_S740000x1_0),
    binary main_v44 main_v74 main_v75 (fun x i => Host.gather gather_S100000x128_S740000x1_S740000x128_1_0_n_n_0_1_1128 x i),
    unary main_v68 main_v76 (broadcastInDim S740000x128 ![0, 1] bcast_S740000x1_S740000x128_0_1),
    binary main_v76 main_v75 main_v77 mulf,
    nullary main_cst_19 (constant S_ .f32 0x00000000#32),
    unary main_cst_19 main_v78 (broadcastInDim S100000x128 ![] bcast_S_S100000x128),
    unary main_v6 main_v79 (broadcastInDim S740000x1 ![0] bcast_S740000_S740000x1_0),
    ternary main_v78 main_v79 main_v77 main_v80 (fun x i u => Host.scatterAdd scatter_S100000x128_S740000x1_S740000x128_1_0_0_1 x i u),
    nullary main_cst_20 (constant S_ .f32 0x3C23D70A#32),
    TRef.nullary main_call2.cst (constant S_ .f32 0x00000000#32),
    TRef.unary main_call2.cst main_call2.v0 (broadcastInDim S100000x128 ![] bcast_S_S100000x128),
    TRef.binary (.of main_v80 : TRef sig ⟨S100000x128, .f32⟩) main_call2.v0 main_call2.v1 (cmpf .oge),
    TRef.unary (.of main_cst_20 : TRef sig ⟨S_, .f32⟩) main_call2.v2 id,
    TRef.unary main_call2.v2 main_call2.v3 (broadcastInDim S100000x128 ![] bcast_S_S100000x128),
    TRef.binary main_call2.v3 (.of main_v80 : TRef sig ⟨S100000x128, .f32⟩) main_call2.v4 mulf,
    TRef.ternary main_call2.v1 (.of main_v80 : TRef sig ⟨S100000x128, .f32⟩) main_call2.v4 main_call2.call0.v0 select,
    binary main_v81 main_arg5 main_v82 (fun l r => Host.dotGeneral dot_S100000x128_S128x128_S100000x128_1_0_0_1_n_n none l r),
    nullary main_cst_21 (constant S_ .f32 0x3F800000#32),
    unary main_cst_21 main_v83 (broadcastInDim S740000 ![] bcast_S_S740000),
    nullary main_cst_22 (constant S_ .f32 0x00000000#32),
    unary main_cst_22 main_v84 (broadcastInDim S100000 ![] bcast_S_S100000),
    unary main_v6 main_v85 (broadcastInDim S740000x1 ![0] bcast_S740000_S740000x1_0),
    ternary main_v84 main_v85 main_v83 main_v86 (fun x i u => Host.scatterAdd scatter_S100000_S740000x1_S740000_n_0_0_1 x i u),
    nullary main_cst_23 (constant S_ .f32 0x00000000#32),
    unary main_cst_23 main_v87 (broadcastInDim S100000 ![] bcast_S_S100000),
    binary main_v86 main_v87 main_v88 (cmpf .ogt),
    unary main_v86 main_v89 Host.rsqrt,
    nullary main_cst_24 (constant S_ .f32 0x00000000#32),
    TRef.unary (.of main_cst_24 : TRef sig ⟨S_, .f32⟩) main_call3.v0 id,
    TRef.unary main_call3.v0 main_call3.v1 (broadcastInDim S100000 ![] bcast_S_S100000),
    TRef.ternary (.of main_v88 : TRef sig ⟨S100000, .i1⟩) (.of main_v89 : TRef sig ⟨S100000, .f32⟩) main_call3.v1 main_call3.v2 select,
    nullary main_c_25 (constantI S_ 32 0#32),
    unary main_c_25 main_v91 (broadcastInDim S740000 ![] bcast_S_S740000) ]

/-- Every operation of the second window touches the device's own buffers only. -/
theorem ops1_sub : (ops1 : List (HloOp τ sig (Elt F))).Forall fun op => op.bufs ⊆ tcRefs τ sig :=
  ⟨unary_bufs_sub .., ternary_bufs_sub .., nullary_bufs_sub .., unary_bufs_sub .., binary_bufs_sub .., unary_bufs_sub ..,
    nullary_bufs_sub .., unary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., nullary_bufs_sub ..,
    unary_bufs_sub .., unary_bufs_sub .., ternary_bufs_sub ..,
    nullary_bufs_sub ..,
    nullary_bufs_sub .., unary_bufs_sub .., binary_bufs_sub .., unary_bufs_sub .., unary_bufs_sub .., binary_bufs_sub ..,
    ternary_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., nullary_bufs_sub ..,
    unary_bufs_sub .., unary_bufs_sub .., ternary_bufs_sub ..,
    nullary_bufs_sub .., unary_bufs_sub ..⟩

/-- No operation of the second window allocates a buffer: each determines its result. -/
theorem ops1_fresh : (ops1 : List (HloOp τ sig (Elt F))).Forall fun op => op.fresh = ∅ := by
  simp only [List.Forall]; repeat' constructor

set_option maxRecDepth 4096 in
/-- The second window is the sequence of its operations: the selection's and the rectifier's bodies (and, inside
    the rectifier, its own selection's) unfolded at their calls. -/
theorem main_part1_eq (c : Dev nD) : main_part1 (F := F) c = seq ops1 := by
  simp only [main_part1, fn_where.body, fn_leaky_relu.body, fn_where_0.body, seq, bind_assoc, pure_bind]
  rfl

/-- The third window: the third layer's edge weights and propagation, and the pooling of nodes into graphs. -/
abbrev ops2 : List (HloOp τ sig (Elt F)) :=
  [ binary main_v3 main_v91 main_v92 (cmpi .slt),
    nullary main_c_26 (constantI S_ 32 100000#32),
    unary main_c_26 main_v93 (broadcastInDim S740000 ![] bcast_S_S740000),
    binary main_v3 main_v93 main_v94 addi,
    ternary main_v92 main_v94 main_v3 main_v95 select,
    unary main_v95 main_v96 (broadcastInDim S740000x1 ![0] bcast_S740000_S740000x1_0),
    binary main_v90 main_v96 main_v97 (fun x i => Host.gather gather_S100000_S740000x1_S740000_n_0_n_n_0_1_1 x i),
    nullary main_c_27 (constantI S_ 32 0#32),
    unary main_c_27 main_v98 (broadcastInDim S740000 ![] bcast_S_S740000),
    binary main_v6 main_v98 main_v99 (cmpi .slt),
    nullary main_c_28 (constantI S_ 32 100000#32),
    unary main_c_28 main_v100 (broadcastInDim S740000 ![] bcast_S_S740000),
    binary main_v6 main_v100 main_v101 addi,
    ternary main_v99 main_v101 main_v6 main_v102 select,
    unary main_v102 main_v103 (broadcastInDim S740000x1 ![0] bcast_S740000_S740000x1_0),
    binary main_v90 main_v103 main_v104 (fun x i => Host.gather gather_S100000_S740000x1_S740000_n_0_n_n_0_1_1 x i),
    binary main_v97 main_v104 main_v105 mulf,
    unary main_v105 main_v106 (broadcastInDim S740000x1 ![0] bcast_S740000_S740000x1_0),
    nullary main_c_29 (constantI S_ 32 0#32),
    unary main_c_29 main_v107 (broadcastInDim S740000 ![] bcast_S_S740000),
    binary main_v3 main_v107 main_v108 (cmpi .slt),
    nullary main_c_30 (constantI S_ 32 100000#32),
    unary main_c_30 main_v109 (broadcastInDim S740000 ![] bcast_S_S740000),
    binary main_v3 main_v109 main_v110 addi,
    ternary main_v108 main_v110 main_v3 main_v111 select,
    unary main_v111 main_v112 (broadcastInDim S740000x1 ![0] bcast_S740000_S740000x1_0),
    binary main_v82 main_v112 main_v113 (fun x i => Host.gather gather_S100000x128_S740000x1_S740000x128_1_0_n_n_0_1_1128 x i),
    unary main_v106 main_v114 (broadcastInDim S740000x128 ![0, 1] bcast_S740000x1_S740000x128_0_1),
    binary main_v114 main_v113 main_v115 mulf,
    nullary main_cst_31 (constant S_ .f32 0x00000000#32),
    unary main_cst_31 main_v116 (broadcastInDim S100000x128 ![] bcast_S_S100000x128),
    unary main_v6 main_v117 (broadcastInDim S740000x1 ![0] bcast_S740000_S740000x1_0),
    ternary main_v116 main_v117 main_v115 main_v118 (fun x i u => Host.scatterAdd scatter_S100000x128_S740000x1_S740000x128_1_0_0_1 x i u),
    nullary main_cst_32 (constant S_ .f32 0x00000000#32),
    unary main_cst_32 main_v119 (broadcastInDim S512x128 ![] bcast_S_S512x128),
    unary main_arg2 main_v120 (broadcastInDim S100000x1 ![0] bcast_S100000_S100000x1_0),
    ternary main_v119 main_v120 main_v118 main_v121 (fun x i u => Host.scatterAdd scatter_S512x128_S100000x1_S100000x128_1_0_0_1 x i u) ]

/-- Every operation of the third window touches the device's own buffers only. -/
theorem ops2_sub : (ops2 : List (HloOp τ sig (Elt F))).Forall fun op => op.bufs ⊆ tcRefs τ sig :=
  ⟨binary_bufs_sub .., nullary_bufs_sub .., unary_bufs_sub .., binary_bufs_sub .., ternary_bufs_sub .., unary_bufs_sub ..,
    binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., nullary_bufs_sub ..,
    unary_bufs_sub .., unary_bufs_sub .., ternary_bufs_sub ..,
    nullary_bufs_sub .., unary_bufs_sub .., unary_bufs_sub .., ternary_bufs_sub ..⟩

/-- No operation of the third window allocates a buffer: each determines its result. -/
theorem ops2_fresh : (ops2 : List (HloOp τ sig (Elt F))).Forall fun op => op.fresh = ∅ := by
  simp only [List.Forall]; repeat' constructor

set_option maxRecDepth 4096 in
/-- The third window is the sequence of its operations. -/
theorem main_part2_eq (c : Dev nD) : main_part2 (F := F) c = seq ops2 := by
  simp only [main_part2, seq, bind_assoc, pure_bind]
  rfl

/-- @main's operations, in order. -/
abbrev ops : List (HloOp τ sig (Elt F)) := ops0 ++ ops1 ++ ops2

/-- @main runs its three windows in order, so it is the sequence of the three lists joined. -/
theorem main_eq (c : Dev nD) : main (F := F) c = seq ops := by
  simp only [main, main_part0_eq, main_part1_eq, main_part2_eq, seq_append, bind_assoc]

/-- The signature scopes no buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Every operation touches the device's own buffers only. -/
theorem ops_sub : (ops : List (HloOp τ sig (Elt F))).Forall fun op => op.bufs ⊆ tcRefs τ sig :=
  List.forall_iff_forall_mem.mpr fun op h => by
    rcases List.mem_append.mp h with h | h
    · rcases List.mem_append.mp h with h | h
      · exact List.forall_iff_forall_mem.mp ops0_sub op h
      · exact List.forall_iff_forall_mem.mp ops1_sub op h
    · exact List.forall_iff_forall_mem.mp ops2_sub op h

/-- No operation allocates a buffer: each determines its result. -/
theorem ops_fresh : ∀ op ∈ (ops : List (HloOp τ sig (Elt F))), op.fresh = ∅ := fun op h => by
  rcases List.mem_append.mp h with h | h
  · rcases List.mem_append.mp h with h | h
    · exact List.forall_iff_forall_mem.mp ops0_fresh op h
    · exact List.forall_iff_forall_mem.mp ops1_fresh op h
  · exact List.forall_iff_forall_mem.mp ops2_fresh op h

end Cert.ReferenceIdeal.Hand

end
-- ==== Proof.RefStretch.lean ====
/-
  The reference's operations cut into nine stretches, each computing one named quantity of a layer (the edge
  list, a dense product, the inverse square roots of the degrees, the edge weights, a propagation, the pooling),
  and the fact that running the stretches one after the other is running @main's operations.
-/
import proofs.«124265_j30657476559416_1_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The edge list with self loops, the first dense product, and the inverse square root of the degrees. -/
def T1 : List (HloOp τ sig (Elt F)) :=
  [ nullary main_v0 (iotaInDim S100000 32 0),
    unary main_arg1 main_v1 (extractStridedSlice S1x640000 ![0, 0] · slices_S2x640000_S1x640000_0_0),
    reshape main_v1 main_v2 rfl shapeCasts_S1x640000_S640000,
    binary main_v2 main_v0 main_v3 (fun a b => concatenate S740000 0 [⟨S640000, a⟩, ⟨S100000, b⟩] concatenates_S640000_S100000_S740000_d0),
    unary main_arg1 main_v4 (extractStridedSlice S1x640000 ![1, 0] · slices_S2x640000_S1x640000_1_0),
    reshape main_v4 main_v5 rfl shapeCasts_S1x640000_S640000,
    binary main_v5 main_v0 main_v6 (fun a b => concatenate S740000 0 [⟨S640000, a⟩, ⟨S100000, b⟩] concatenates_S640000_S100000_S740000_d0),
    binary main_arg0 main_arg3 main_v7 (fun l r => Host.dotGeneral dot_S100000x128_S128x128_S100000x128_1_0_0_1_n_n none l r),
    nullary main_cst (constant S_ .f32 0x3F800000#32),
    unary main_cst main_v8 (broadcastInDim S740000 ![] bcast_S_S740000),
    nullary main_cst_0 (constant S_ .f32 0x00000000#32),
    unary main_cst_0 main_v9 (broadcastInDim S100000 ![] bcast_S_S100000),
    unary main_v6 main_v10 (broadcastInDim S740000x1 ![0] bcast_S740000_S740000x1_0),
    ternary main_v9 main_v10 main_v8 main_v11 (fun x i u => Host.scatterAdd scatter_S100000_S740000x1_S740000_n_0_0_1 x i u),
    nullary main_cst_1 (constant S_ .f32 0x00000000#32),
    unary main_cst_1 main_v12 (broadcastInDim S100000 ![] bcast_S_S100000),
    binary main_v11 main_v12 main_v13 (cmpf .ogt),
    unary main_v11 main_v14 Host.rsqrt,
    nullary main_cst_2 (constant S_ .f32 0x00000000#32),
    TRef.unary (.of main_cst_2 : TRef sig ⟨S_, .f32⟩) main_call0.v0 id,
    TRef.unary main_call0.v0 main_call0.v1 (broadcastInDim S100000 ![] bcast_S_S100000),
    TRef.ternary (.of main_v13 : TRef sig ⟨S100000, .i1⟩) (.of main_v14 : TRef sig ⟨S100000, .f32⟩) main_call0.v1 main_call0.v2 select ]

/-- The first layer's edge weights. -/
def T2 : List (HloOp τ sig (Elt F)) :=
  [ nullary main_c (constantI S_ 32 0#32),
    unary main_c main_v16 (broadcastInDim S740000 ![] bcast_S_S740000),
    binary main_v3 main_v16 main_v17 (cmpi .slt),
    nullary main_c_3 (constantI S_ 32 100000#32),
    unary main_c_3 main_v18 (broadcastInDim S740000 ![] bcast_S_S740000),
    binary main_v3 main_v18 main_v19 addi,
    ternary main_v17 main_v19 main_v3 main_v20 select,
    unary main_v20 main_v21 (broadcastInDim S740000x1 ![0] bcast_S740000_S740000x1_0),
    binary main_v15 main_v21 main_v22 (fun x i => Host.gather gather_S100000_S740000x1_S740000_n_0_n_n_0_1_1 x i),
    nullary main_c_4 (constantI S_ 32 0#32),
    unary main_c_4 main_v23 (broadcastInDim S740000 ![] bcast_S_S740000),
    binary main_v6 main_v23 main_v24 (cmpi .slt),
    nullary main_c_5 (constantI S_ 32 100000#32),
    unary main_c_5 main_v25 (broadcastInDim S740000 ![] bcast_S_S740000),
    binary main_v6 main_v25 main_v26 addi,
    ternary main_v24 main_v26 main_v6 main_v27 select,
    unary main_v27 main_v28 (broadcastInDim S740000x1 ![0] bcast_S740000_S740000x1_0),
    binary main_v15 main_v28 main_v29 (fun x i => Host.gather gather_S100000_S740000x1_S740000_n_0_n_n_0_1_1 x i),
    binary main_v22 main_v29 main_v30 mulf ]

/-- The first propagation. -/
def T3 : List (HloOp τ sig (Elt F)) :=
  [ unary main_v30 main_v31 (broadcastInDim S740000x1 ![0] bcast_S740000_S740000x1_0),
    nullary main_c_6 (constantI S_ 32 0#32),
    unary main_c_6 main_v32 (broadcastInDim S740000 ![] bcast_S_S740000),
    binary main_v3 main_v32 main_v33 (cmpi .slt),
    nullary main_c_7 (constantI S_ 32 100000#32),
    unary main_c_7 main_v34 (broadcastInDim S740000 ![] bcast_S_S740000),
    binary main_v3 main_v34 main_v35 addi,
    ternary main_v33 main_v35 main_v3 main_v36 select,
    unary main_v36 main_v37 (broadcastInDim S740000x1 ![0] bcast_S740000_S740000x1_0),
    binary main_v7 main_v37 main_v38 (fun x i => Host.gather gather_S100000x128_S740000x1_S740000x128_1_0_n_n_0_1_1128 x i),
    unary main_v31 main_v39 (broadcastInDim S740000x128 ![0, 1] bcast_S740000x1_S740000x128_0_1),
    binary main_v39 main_v38 main_v40 mulf,
    nullary main_cst_8 (constant S_ .f32 0x00000000#32),
    unary main_cst_8 main_v41 (broadcastInDim S100000x128 ![] bcast_S_S100000x128),
    unary main_v6 main_v42 (broadcastInDim S740000x1 ![0] bcast_S740000_S740000x1_0),
    ternary main_v41 main_v42 main_v40 main_v43 (fun x i u => Host.scatterAdd scatter_S100000x128_S740000x1_S740000x128_1_0_0_1 x i u) ]

/-- The second dense product and the inverse square root of the degrees. -/
def T4 : List (HloOp τ sig (Elt F)) :=
  [ binary main_v43 main_arg4 main_v44 (fun l r => Host.dotGeneral dot_S100000x128_S128x128_S100000x128_1_0_0_1_n_n none l r),
    nullary main_cst_9 (constant S_ .f32 0x3F800000#32),
    unary main_cst_9 main_v45 (broadcastInDim S740000 ![] bcast_S_S740000),
    nullary main_cst_10 (constant S_ .f32 0x00000000#32),
    unary main_cst_10 main_v46 (broadcastInDim S100000 ![] bcast_S_S100000),
    unary main_v6 main_v47 (broadcastInDim S740000x1 ![0] bcast_S740000_S740000x1_0),
    ternary main_v46 main_v47 main_v45 main_v48 (fun x i u => Host.scatterAdd scatter_S100000_S740000x1_S740000_n_0_0_1 x i u),
    nullary main_cst_11 (constant S_ .f32 0x00000000#32),
    unary main_cst_11 main_v49 (broadcastInDim S100000 ![] bcast_S_S100000),
    binary main_v48 main_v49 main_v50 (cmpf .ogt),
    unary main_v48 main_v51 Host.rsqrt,
    nullary main_cst_12 (constant S_ .f32 0x00000000#32),
    TRef.unary (.of main_cst_12 : TRef sig ⟨S_, .f32⟩) main_call1.v0 id,
    TRef.unary main_call1.v0 main_call1.v1 (broadcastInDim S100000 ![] bcast_S_S100000),
    TRef.ternary (.of main_v50 : TRef sig ⟨S100000, .i1⟩) (.of main_v51 : TRef sig ⟨S100000, .f32⟩) main_call1.v1 main_call1.v2 select ]

/-- The second layer's edge weights. -/
def T5 : List (HloOp τ sig (Elt F)) :=
  [ nullary main_c_13 (constantI S_ 32 0#32),
    unary main_c_13 main_v53 (broadcastInDim S740000 ![] bcast_S_S740000),
    binary main_v3 main_v53 main_v54 (cmpi .slt),
    nullary main_c_14 (constantI S_ 32 100000#32),
    unary main_c_14 main_v55 (broadcastInDim S740000 ![] bcast_S_S740000),
    binary main_v3 main_v55 main_v56 addi,
    ternary main_v54 main_v56 main_v3 main_v57 select,
    unary main_v57 main_v58 (broadcastInDim S740000x1 ![0] bcast_S740000_S740000x1_0),
    binary main_v52 main_v58 main_v59 (fun x i => Host.gather gather_S100000_S740000x1_S740000_n_0_n_n_0_1_1 x i),
    nullary main_c_15 (constantI S_ 32 0#32),
    unary main_c_15 main_v60 (broadcastInDim S740000 ![] bcast_S_S740000),
    binary main_v6 main_v60 main_v61 (cmpi .slt),
    nullary main_c_16 (constantI S_ 32 100000#32),
    unary main_c_16 main_v62 (broadcastInDim S740000 ![] bcast_S_S740000),
    binary main_v6 main_v62 main_v63 addi,
    ternary main_v61 main_v63 main_v6 main_v64 select,
    unary main_v64 main_v65 (broadcastInDim S740000x1 ![0] bcast_S740000_S740000x1_0),
    binary main_v52 main_v65 main_v66 (fun x i => Host.gather gather_S100000_S740000x1_S740000_n_0_n_n_0_1_1 x i),
    binary main_v59 main_v66 main_v67 mulf ]

/-- The second propagation. -/
def T6 : List (HloOp τ sig (Elt F)) :=
  [ unary main_v67 main_v68 (broadcastInDim S740000x1 ![0] bcast_S740000_S740000x1_0),
    nullary main_c_17 (constantI S_ 32 0#32),
    unary main_c_17 main_v69 (broadcastInDim S740000 ![] bcast_S_S740000),
    binary main_v3 main_v69 main_v70 (cmpi .slt),
    nullary main_c_18 (constantI S_ 32 100000#32),
    unary main_c_18 main_v71 (broadcastInDim S740000 ![] bcast_S_S740000),
    binary main_v3 main_v71 main_v72 addi,
    ternary main_v70 main_v72 main_v3 main_v73 select,
    unary main_v73 main_v74 (broadcastInDim S740000x1 ![0] bcast_S740000_S740000x1_0),
    binary main_v44 main_v74 main_v75 (fun x i => Host.gather gather_S100000x128_S740000x1_S740000x128_1_0_n_n_0_1_1128 x i),
    unary main_v68 main_v76 (broadcastInDim S740000x128 ![0, 1] bcast_S740000x1_S740000x128_0_1),
    binary main_v76 main_v75 main_v77 mulf,
    nullary main_cst_19 (constant S_ .f32 0x00000000#32),
    unary main_cst_19 main_v78 (broadcastInDim S100000x128 ![] bcast_S_S100000x128),
    unary main_v6 main_v79 (broadcastInDim S740000x1 ![0] bcast_S740000_S740000x1_0),
    ternary main_v78 main_v79 main_v77 main_v80 (fun x i u => Host.scatterAdd scatter_S100000x128_S740000x1_S740000x128_1_0_0_1 x i u) ]

/-- The leaky rectifier, the third dense product and the inverse square root of the degrees. -/
def T7 : List (HloOp τ sig (Elt F)) :=
  [ nullary main_cst_20 (constant S_ .f32 0x3C23D70A#32),
    TRef.nullary main_call2.cst (constant S_ .f32 0x00000000#32),
    TRef.unary main_call2.cst main_call2.v0 (broadcastInDim S100000x128 ![] bcast_S_S100000x128),
    TRef.binary (.of main_v80 : TRef sig ⟨S100000x128, .f32⟩) main_call2.v0 main_call2.v1 (cmpf .oge),
    TRef.unary (.of main_cst_20 : TRef sig ⟨S_, .f32⟩) main_call2.v2 id,
    TRef.unary main_call2.v2 main_call2.v3 (broadcastInDim S100000x128 ![] bcast_S_S100000x128),
    TRef.binary main_call2.v3 (.of main_v80 : TRef sig ⟨S100000x128, .f32⟩) main_call2.v4 mulf,
    TRef.ternary main_call2.v1 (.of main_v80 : TRef sig ⟨S100000x128, .f32⟩) main_call2.v4 main_call2.call0.v0 select,
    binary main_v81 main_arg5 main_v82 (fun l r => Host.dotGeneral dot_S100000x128_S128x128_S100000x128_1_0_0_1_n_n none l r),
    nullary main_cst_21 (constant S_ .f32 0x3F800000#32),
    unary main_cst_21 main_v83 (broadcastInDim S740000 ![] bcast_S_S740000),
    nullary main_cst_22 (constant S_ .f32 0x00000000#32),
    unary main_cst_22 main_v84 (broadcastInDim S100000 ![] bcast_S_S100000),
    unary main_v6 main_v85 (broadcastInDim S740000x1 ![0] bcast_S740000_S740000x1_0),
    ternary main_v84 main_v85 main_v83 main_v86 (fun x i u => Host.scatterAdd scatter_S100000_S740000x1_S740000_n_0_0_1 x i u),
    nullary main_cst_23 (constant S_ .f32 0x00000000#32),
    unary main_cst_23 main_v87 (broadcastInDim S100000 ![] bcast_S_S100000),
    binary main_v86 main_v87 main_v88 (cmpf .ogt),
    unary main_v86 main_v89 Host.rsqrt,
    nullary main_cst_24 (constant S_ .f32 0x00000000#32),
    TRef.unary (.of main_cst_24 : TRef sig ⟨S_, .f32⟩) main_call3.v0 id,
    TRef.unary main_call3.v0 main_call3.v1 (broadcastInDim S100000 ![] bcast_S_S100000),
    TRef.ternary (.of main_v88 : TRef sig ⟨S100000, .i1⟩) (.of main_v89 : TRef sig ⟨S100000, .f32⟩) main_call3.v1 main_call3.v2 select ]

/-- The third layer's edge weights. -/
def T8 : List (HloOp τ sig (Elt F)) :=
  [ nullary main_c_25 (constantI S_ 32 0#32),
    unary main_c_25 main_v91 (broadcastInDim S740000 ![] bcast_S_S740000),
    binary main_v3 main_v91 main_v92 (cmpi .slt),
    nullary main_c_26 (constantI S_ 32 100000#32),
    unary main_c_26 main_v93 (broadcastInDim S740000 ![] bcast_S_S740000),
    binary main_v3 main_v93 main_v94 addi,
    ternary main_v92 main_v94 main_v3 main_v95 select,
    unary main_v95 main_v96 (broadcastInDim S740000x1 ![0] bcast_S740000_S740000x1_0),
    binary main_v90 main_v96 main_v97 (fun x i => Host.gather gather_S100000_S740000x1_S740000_n_0_n_n_0_1_1 x i),
    nullary main_c_27 (constantI S_ 32 0#32),
    unary main_c_27 main_v98 (broadcastInDim S740000 ![] bcast_S_S740000),
    binary main_v6 main_v98 main_v99 (cmpi .slt),
    nullary main_c_28 (constantI S_ 32 100000#32),
    unary main_c_28 main_v100 (broadcastInDim S740000 ![] bcast_S_S740000),
    binary main_v6 main_v100 main_v101 addi,
    ternary main_v99 main_v101 main_v6 main_v102 select,
    unary main_v102 main_v103 (broadcastInDim S740000x1 ![0] bcast_S740000_S740000x1_0),
    binary main_v90 main_v103 main_v104 (fun x i => Host.gather gather_S100000_S740000x1_S740000_n_0_n_n_0_1_1 x i),
    binary main_v97 main_v104 main_v105 mulf ]

/-- The third propagation and the pooling. -/
def T9 : List (HloOp τ sig (Elt F)) :=
  [ unary main_v105 main_v106 (broadcastInDim S740000x1 ![0] bcast_S740000_S740000x1_0),
    nullary main_c_29 (constantI S_ 32 0#32),
    unary main_c_29 main_v107 (broadcastInDim S740000 ![] bcast_S_S740000),
    binary main_v3 main_v107 main_v108 (cmpi .slt),
    nullary main_c_30 (constantI S_ 32 100000#32),
    unary main_c_30 main_v109 (broadcastInDim S740000 ![] bcast_S_S740000),
    binary main_v3 main_v109 main_v110 addi,
    ternary main_v108 main_v110 main_v3 main_v111 select,
    unary main_v111 main_v112 (broadcastInDim S740000x1 ![0] bcast_S740000_S740000x1_0),
    binary main_v82 main_v112 main_v113 (fun x i => Host.gather gather_S100000x128_S740000x1_S740000x128_1_0_n_n_0_1_1128 x i),
    unary main_v106 main_v114 (broadcastInDim S740000x128 ![0, 1] bcast_S740000x1_S740000x128_0_1),
    binary main_v114 main_v113 main_v115 mulf,
    nullary main_cst_31 (constant S_ .f32 0x00000000#32),
    unary main_cst_31 main_v116 (broadcastInDim S100000x128 ![] bcast_S_S100000x128),
    unary main_v6 main_v117 (broadcastInDim S740000x1 ![0] bcast_S740000_S740000x1_0),
    ternary main_v116 main_v117 main_v115 main_v118 (fun x i u => Host.scatterAdd scatter_S100000x128_S740000x1_S740000x128_1_0_0_1 x i u),
    nullary main_cst_32 (constant S_ .f32 0x00000000#32),
    unary main_cst_32 main_v119 (broadcastInDim S512x128 ![] bcast_S_S512x128),
    unary main_arg2 main_v120 (broadcastInDim S100000x1 ![0] bcast_S100000_S100000x1_0),
    ternary main_v119 main_v120 main_v118 main_v121 (fun x i u => Host.scatterAdd scatter_S512x128_S100000x1_S100000x128_1_0_0_1 x i u) ]

/-- Running two lists one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- @main's operations are the nine stretches in order. -/
theorem ops_eq : (ops : List (HloOp τ sig (Elt F))) = T1 ++ T2 ++ T3 ++ T4 ++ T5 ++ T6 ++ T7 ++ T8 ++ T9 := rfl

/-- After @main's operations the buffers are what the nine stretches leave, one after the other. -/
theorem after_ops (V : Valuation τ sig (Elt F)) :
    after ops V = after T9 (after T8 (after T7 (after T6 (after T5 (after T4 (after T3 (after T2 (after T1 V)))))))) := by
  rw [ops_eq]
  simp only [after_append]

/-- The weight of every edge from a scale factor per node: the product of the factors of the edge's two end nodes. -/
def weightOf (d : (⟨S100000, .f32⟩ : BufTy).Contents (Elt F)) (row col : (⟨S740000, .i32⟩ : BufTy).Contents (Elt F)) :
    (⟨S740000, .f32⟩ : BufTy).Contents (Elt F) :=
  mulf (Host.gather gather_S100000_S740000x1_S740000_n_0_n_n_0_1_1 d (Cert.KernelIdeal.Chain.asStart row))
    (Host.gather gather_S100000_S740000x1_S740000_n_0_n_n_0_1_1 d (Cert.KernelIdeal.Chain.asStart col))

/-- The edge weight of the graph convolution is that product at the inverse square roots of the degrees. -/
theorem edgeWeight_eq (row col : (⟨S740000, .i32⟩ : BufTy).Contents (Elt F)) :
    Cert.KernelIdeal.Chain.edgeWeight row col = weightOf (Cert.KernelIdeal.Chain.invSqrtDegree col) row col := rfl

end Cert.ReferenceIdeal.Hand

end
-- ==== Proof.RefValue1.lean ====
/-
  What each stretch of the reference leaves in the buffers later stretches read, as the named functions of a
  graph-convolution layer applied to what the stretch found in the buffers it reads (part 1 of 3). Each
  equation holds by unfolding the stretch operation by operation: an operation's result is its function of its
  operands' contents at its own buffer, and what was there at any other.
-/
import proofs.«124265_j30657476559416_1_alg».proof.Proof.RefStretch

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- a scatter, a gather, a concatenation and a reciprocal square root are compared as wholes: the equations below never look inside one
attribute [local irreducible] Host.scatterAdd Host.gather concatenate Host.rsqrt

/-! ### Stretch 1 -/

/-- The source node of every edge, the self loops appended. -/
theorem T1_v3 (V : Valuation τ sig (Elt F)) :
    after T1 V (Proc.devRef .tc main_v3) = Cert.KernelIdeal.Chain.sources (V (Proc.devRef .tc main_arg1)) := by
  simp only [T1, after_cons, after_nil]
  rfl

/-- The target node of every edge, the self loops appended. -/
theorem T1_v6 (V : Valuation τ sig (Elt F)) :
    after T1 V (Proc.devRef .tc main_v6) = Cert.KernelIdeal.Chain.targets (V (Proc.devRef .tc main_arg1)) := by
  simp only [T1, after_cons, after_nil]
  rfl

/-- The first dense product. -/
theorem T1_v7 (V : Valuation τ sig (Elt F)) :
    after T1 V (Proc.devRef .tc main_v7) = Spec.dense (V (Proc.devRef .tc main_arg0)) (V (Proc.devRef .tc main_arg3)) := by
  simp only [T1, after_cons, after_nil]
  rfl

/-- The inverse square root of every node's degree, zero where the degree is not positive. -/
theorem T1_v15 (V : Valuation τ sig (Elt F)) :
    after T1 V (Proc.devRef .tc main_v15) = Cert.KernelIdeal.Chain.invSqrtDegree (Cert.KernelIdeal.Chain.targets (V (Proc.devRef .tc main_arg1))) := by
  simp only [T1, after_cons, after_nil]
  rfl

/-- The stretch writes no buffer of the node features: it is left as it was. -/
theorem T1_arg0 (V : Valuation τ sig (Elt F)) :
    after T1 V (Proc.devRef .tc main_arg0) = V (Proc.devRef .tc main_arg0) := by
  simp only [T1, after_cons, after_nil]
  rfl

/-- The stretch writes no buffer of the edge list: it is left as it was. -/
theorem T1_arg1 (V : Valuation τ sig (Elt F)) :
    after T1 V (Proc.devRef .tc main_arg1) = V (Proc.devRef .tc main_arg1) := by
  simp only [T1, after_cons, after_nil]
  rfl

/-- The stretch writes no buffer of the assignment of nodes to graphs: it is left as it was. -/
theorem T1_arg2 (V : Valuation τ sig (Elt F)) :
    after T1 V (Proc.devRef .tc main_arg2) = V (Proc.devRef .tc main_arg2) := by
  simp only [T1, after_cons, after_nil]
  rfl

/-- The stretch writes no buffer of the first weight matrix: it is left as it was. -/
theorem T1_arg3 (V : Valuation τ sig (Elt F)) :
    after T1 V (Proc.devRef .tc main_arg3) = V (Proc.devRef .tc main_arg3) := by
  simp only [T1, after_cons, after_nil]
  rfl

/-- The stretch writes no buffer of the second weight matrix: it is left as it was. -/
theorem T1_arg4 (V : Valuation τ sig (Elt F)) :
    after T1 V (Proc.devRef .tc main_arg4) = V (Proc.devRef .tc main_arg4) := by
  simp only [T1, after_cons, after_nil]
  rfl

/-- The stretch writes no buffer of the third weight matrix: it is left as it was. -/
theorem T1_arg5 (V : Valuation τ sig (Elt F)) :
    after T1 V (Proc.devRef .tc main_arg5) = V (Proc.devRef .tc main_arg5) := by
  simp only [T1, after_cons, after_nil]
  rfl

/-! ### Stretch 2 -/

/-- The edge weights: the product of the scale factors at the two ends of every edge. -/
theorem T2_v30 (V : Valuation τ sig (Elt F)) :
    after T2 V (Proc.devRef .tc main_v30) = weightOf (V (Proc.devRef .tc main_v15)) (V (Proc.devRef .tc main_v3)) (V (Proc.devRef .tc main_v6)) := by
  simp only [T2, after_cons, after_nil]
  rfl

/-- The stretch writes no buffer of the source nodes: it is left as it was. -/
theorem T2_v3 (V : Valuation τ sig (Elt F)) :
    after T2 V (Proc.devRef .tc main_v3) = V (Proc.devRef .tc main_v3) := by
  simp only [T2, after_cons, after_nil]
  rfl

/-- The stretch writes no buffer of the target nodes: it is left as it was. -/
theorem T2_v6 (V : Valuation τ sig (Elt F)) :
    after T2 V (Proc.devRef .tc main_v6) = V (Proc.devRef .tc main_v6) := by
  simp only [T2, after_cons, after_nil]
  rfl

/-- The stretch writes no buffer of the first dense product: it is left as it was. -/
theorem T2_v7 (V : Valuation τ sig (Elt F)) :
    after T2 V (Proc.devRef .tc main_v7) = V (Proc.devRef .tc main_v7) := by
  simp only [T2, after_cons, after_nil]
  rfl

/-- The stretch writes no buffer of the node features: it is left as it was. -/
theorem T2_arg0 (V : Valuation τ sig (Elt F)) :
    after T2 V (Proc.devRef .tc main_arg0) = V (Proc.devRef .tc main_arg0) := by
  simp only [T2, after_cons, after_nil]
  rfl

/-- The stretch writes no buffer of the edge list: it is left as it was. -/
theorem T2_arg1 (V : Valuation τ sig (Elt F)) :
    after T2 V (Proc.devRef .tc main_arg1) = V (Proc.devRef .tc main_arg1) := by
  simp only [T2, after_cons, after_nil]
  rfl

/-- The stretch writes no buffer of the assignment of nodes to graphs: it is left as it was. -/
theorem T2_arg2 (V : Valuation τ sig (Elt F)) :
    after T2 V (Proc.devRef .tc main_arg2) = V (Proc.devRef .tc main_arg2) := by
  simp only [T2, after_cons, after_nil]
  rfl

/-- The stretch writes no buffer of the first weight matrix: it is left as it was. -/
theorem T2_arg3 (V : Valuation τ sig (Elt F)) :
    after T2 V (Proc.devRef .tc main_arg3) = V (Proc.devRef .tc main_arg3) := by
  simp only [T2, after_cons, after_nil]
  rfl

/-- The stretch writes no buffer of the second weight matrix: it is left as it was. -/
theorem T2_arg4 (V : Valuation τ sig (Elt F)) :
    after T2 V (Proc.devRef .tc main_arg4) = V (Proc.devRef .tc main_arg4) := by
  simp only [T2, after_cons, after_nil]
  rfl

/-- The stretch writes no buffer of the third weight matrix: it is left as it was. -/
theorem T2_arg5 (V : Valuation τ sig (Elt F)) :
    after T2 V (Proc.devRef .tc main_arg5) = V (Proc.devRef .tc main_arg5) := by
  simp only [T2, after_cons, after_nil]
  rfl

/-! ### Stretch 3 -/

/-- The propagation of the first layer's features along the weighted edges. -/
theorem T3_v43 (V : Valuation τ sig (Elt F)) :
    after T3 V (Proc.devRef .tc main_v43) = Cert.KernelIdeal.Chain.propagate (V (Proc.devRef .tc main_v30)) (V (Proc.devRef .tc main_v3)) (V (Proc.devRef .tc main_v6)) (V (Proc.devRef .tc main_v7)) := by
  simp only [T3, after_cons, after_nil]
  rfl

/-- The stretch writes no buffer of the source nodes: it is left as it was. -/
theorem T3_v3 (V : Valuation τ sig (Elt F)) :
    after T3 V (Proc.devRef .tc main_v3) = V (Proc.devRef .tc main_v3) := by
  simp only [T3, after_cons, after_nil]
  rfl

/-- The stretch writes no buffer of the target nodes: it is left as it was. -/
theorem T3_v6 (V : Valuation τ sig (Elt F)) :
    after T3 V (Proc.devRef .tc main_v6) = V (Proc.devRef .tc main_v6) := by
  simp only [T3, after_cons, after_nil]
  rfl

/-- The stretch writes no buffer of the node features: it is left as it was. -/
theorem T3_arg0 (V : Valuation τ sig (Elt F)) :
    after T3 V (Proc.devRef .tc main_arg0) = V (Proc.devRef .tc main_arg0) := by
  simp only [T3, after_cons, after_nil]
  rfl

/-- The stretch writes no buffer of the edge list: it is left as it was. -/
theorem T3_arg1 (V : Valuation τ sig (Elt F)) :
    after T3 V (Proc.devRef .tc main_arg1) = V (Proc.devRef .tc main_arg1) := by
  simp only [T3, after_cons, after_nil]
  rfl

/-- The stretch writes no buffer of the assignment of nodes to graphs: it is left as it was. -/
theorem T3_arg2 (V : Valuation τ sig (Elt F)) :
    after T3 V (Proc.devRef .tc main_arg2) = V (Proc.devRef .tc main_arg2) := by
  simp only [T3, after_cons, after_nil]
  rfl

/-- The stretch writes no buffer of the first weight matrix: it is left as it was. -/
theorem T3_arg3 (V : Valuation τ sig (Elt F)) :
    after T3 V (Proc.devRef .tc main_arg3) = V (Proc.devRef .tc main_arg3) := by
  simp only [T3, after_cons, after_nil]
  rfl

/-- The stretch writes no buffer of the second weight matrix: it is left as it was. -/
theorem T3_arg4 (V : Valuation τ sig (Elt F)) :
    after T3 V (Proc.devRef .tc main_arg4) = V (Proc.devRef .tc main_arg4) := by
  simp only [T3, after_cons, after_nil]
  rfl

/-- The stretch writes no buffer of the third weight matrix: it is left as it was. -/
theorem T3_arg5 (V : Valuation τ sig (Elt F)) :
    after T3 V (Proc.devRef .tc main_arg5) = V (Proc.devRef .tc main_arg5) := by
  simp only [T3, after_cons, after_nil]
  rfl

end Cert.ReferenceIdeal.Hand

end
-- ==== Proof.RefValue2.lean ====
/-
  What each stretch of the reference leaves in the buffers later stretches read, as the named functions of a
  graph-convolution layer applied to what the stretch found in the buffers it reads (part 2 of 3). Each
  equation holds by unfolding the stretch operation by operation: an operation's result is its function of its
  operands' contents at its own buffer, and what was there at any other.
-/
import proofs.«124265_j30657476559416_1_alg».proof.Proof.RefStretch

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- a scatter, a gather, a concatenation and a reciprocal square root are compared as wholes: the equations below never look inside one
attribute [local irreducible] Host.scatterAdd Host.gather concatenate Host.rsqrt

/-! ### Stretch 4 -/

/-- The second dense product. -/
theorem T4_v44 (V : Valuation τ sig (Elt F)) :
    after T4 V (Proc.devRef .tc main_v44) = Spec.dense (V (Proc.devRef .tc main_v43)) (V (Proc.devRef .tc main_arg4)) := by
  simp only [T4, after_cons, after_nil]
  rfl

/-- The inverse square root of every node's degree, computed again from the target nodes. -/
theorem T4_v52 (V : Valuation τ sig (Elt F)) :
    after T4 V (Proc.devRef .tc main_v52) = Cert.KernelIdeal.Chain.invSqrtDegree (V (Proc.devRef .tc main_v6)) := by
  simp only [T4, after_cons, after_nil]
  rfl

/-- The stretch writes no buffer of the source nodes: it is left as it was. -/
theorem T4_v3 (V : Valuation τ sig (Elt F)) :
    after T4 V (Proc.devRef .tc main_v3) = V (Proc.devRef .tc main_v3) := by
  simp only [T4, after_cons, after_nil]
  rfl

/-- The stretch writes no buffer of the target nodes: it is left as it was. -/
theorem T4_v6 (V : Valuation τ sig (Elt F)) :
    after T4 V (Proc.devRef .tc main_v6) = V (Proc.devRef .tc main_v6) := by
  simp only [T4, after_cons, after_nil]
  rfl

/-- The stretch writes no buffer of the node features: it is left as it was. -/
theorem T4_arg0 (V : Valuation τ sig (Elt F)) :
    after T4 V (Proc.devRef .tc main_arg0) = V (Proc.devRef .tc main_arg0) := by
  simp only [T4, after_cons, after_nil]
  rfl

/-- The stretch writes no buffer of the edge list: it is left as it was. -/
theorem T4_arg1 (V : Valuation τ sig (Elt F)) :
    after T4 V (Proc.devRef .tc main_arg1) = V (Proc.devRef .tc main_arg1) := by
  simp only [T4, after_cons, after_nil]
  rfl

/-- The stretch writes no buffer of the assignment of nodes to graphs: it is left as it was. -/
theorem T4_arg2 (V : Valuation τ sig (Elt F)) :
    after T4 V (Proc.devRef .tc main_arg2) = V (Proc.devRef .tc main_arg2) := by
  simp only [T4, after_cons, after_nil]
  rfl

/-- The stretch writes no buffer of the first weight matrix: it is left as it was. -/
theorem T4_arg3 (V : Valuation τ sig (Elt F)) :
    after T4 V (Proc.devRef .tc main_arg3) = V (Proc.devRef .tc main_arg3) := by
  simp only [T4, after_cons, after_nil]
  rfl

/-- The stretch writes no buffer of the second weight matrix: it is left as it was. -/
theorem T4_arg4 (V : Valuation τ sig (Elt F)) :
    after T4 V (Proc.devRef .tc main_arg4) = V (Proc.devRef .tc main_arg4) := by
  simp only [T4, after_cons, after_nil]
  rfl

/-- The stretch writes no buffer of the third weight matrix: it is left as it was. -/
theorem T4_arg5 (V : Valuation τ sig (Elt F)) :
    after T4 V (Proc.devRef .tc main_arg5) = V (Proc.devRef .tc main_arg5) := by
  simp only [T4, after_cons, after_nil]
  rfl

/-! ### Stretch 5 -/

/-- The edge weights of the second layer. -/
theorem T5_v67 (V : Valuation τ sig (Elt F)) :
    after T5 V (Proc.devRef .tc main_v67) = weightOf (V (Proc.devRef .tc main_v52)) (V (Proc.devRef .tc main_v3)) (V (Proc.devRef .tc main_v6)) := by
  simp only [T5, after_cons, after_nil]
  rfl

/-- The stretch writes no buffer of the source nodes: it is left as it was. -/
theorem T5_v3 (V : Valuation τ sig (Elt F)) :
    after T5 V (Proc.devRef .tc main_v3) = V (Proc.devRef .tc main_v3) := by
  simp only [T5, after_cons, after_nil]
  rfl

/-- The stretch writes no buffer of the target nodes: it is left as it was. -/
theorem T5_v6 (V : Valuation τ sig (Elt F)) :
    after T5 V (Proc.devRef .tc main_v6) = V (Proc.devRef .tc main_v6) := by
  simp only [T5, after_cons, after_nil]
  rfl

/-- The stretch writes no buffer of the second dense product: it is left as it was. -/
theorem T5_v44 (V : Valuation τ sig (Elt F)) :
    after T5 V (Proc.devRef .tc main_v44) = V (Proc.devRef .tc main_v44) := by
  simp only [T5, after_cons, after_nil]
  rfl

/-- The stretch writes no buffer of the node features: it is left as it was. -/
theorem T5_arg0 (V : Valuation τ sig (Elt F)) :
    after T5 V (Proc.devRef .tc main_arg0) = V (Proc.devRef .tc main_arg0) := by
  simp only [T5, after_cons, after_nil]
  rfl

/-- The stretch writes no buffer of the edge list: it is left as it was. -/
theorem T5_arg1 (V : Valuation τ sig (Elt F)) :
    after T5 V (Proc.devRef .tc main_arg1) = V (Proc.devRef .tc main_arg1) := by
  simp only [T5, after_cons, after_nil]
  rfl

/-- The stretch writes no buffer of the assignment of nodes to graphs: it is left as it was. -/
theorem T5_arg2 (V : Valuation τ sig (Elt F)) :
    after T5 V (Proc.devRef .tc main_arg2) = V (Proc.devRef .tc main_arg2) := by
  simp only [T5, after_cons, after_nil]
  rfl

/-- The stretch writes no buffer of the first weight matrix: it is left as it was. -/
theorem T5_arg3 (V : Valuation τ sig (Elt F)) :
    after T5 V (Proc.devRef .tc main_arg3) = V (Proc.devRef .tc main_arg3) := by
  simp only [T5, after_cons, after_nil]
  rfl

/-- The stretch writes no buffer of the second weight matrix: it is left as it was. -/
theorem T5_arg4 (V : Valuation τ sig (Elt F)) :
    after T5 V (Proc.devRef .tc main_arg4) = V (Proc.devRef .tc main_arg4) := by
  simp only [T5, after_cons, after_nil]
  rfl

/-- The stretch writes no buffer of the third weight matrix: it is left as it was. -/
theorem T5_arg5 (V : Valuation τ sig (Elt F)) :
    after T5 V (Proc.devRef .tc main_arg5) = V (Proc.devRef .tc main_arg5) := by
  simp only [T5, after_cons, after_nil]
  rfl

/-! ### Stretch 6 -/

/-- The propagation of the second layer's features along the weighted edges. -/
theorem T6_v80 (V : Valuation τ sig (Elt F)) :
    after T6 V (Proc.devRef .tc main_v80) = Cert.KernelIdeal.Chain.propagate (V (Proc.devRef .tc main_v67)) (V (Proc.devRef .tc main_v3)) (V (Proc.devRef .tc main_v6)) (V (Proc.devRef .tc main_v44)) := by
  simp only [T6, after_cons, after_nil]
  rfl

/-- The stretch writes no buffer of the source nodes: it is left as it was. -/
theorem T6_v3 (V : Valuation τ sig (Elt F)) :
    after T6 V (Proc.devRef .tc main_v3) = V (Proc.devRef .tc main_v3) := by
  simp only [T6, after_cons, after_nil]
  rfl

/-- The stretch writes no buffer of the target nodes: it is left as it was. -/
theorem T6_v6 (V : Valuation τ sig (Elt F)) :
    after T6 V (Proc.devRef .tc main_v6) = V (Proc.devRef .tc main_v6) := by
  simp only [T6, after_cons, after_nil]
  rfl

/-- The stretch writes no buffer of the node features: it is left as it was. -/
theorem T6_arg0 (V : Valuation τ sig (Elt F)) :
    after T6 V (Proc.devRef .tc main_arg0) = V (Proc.devRef .tc main_arg0) := by
  simp only [T6, after_cons, after_nil]
  rfl

/-- The stretch writes no buffer of the edge list: it is left as it was. -/
theorem T6_arg1 (V : Valuation τ sig (Elt F)) :
    after T6 V (Proc.devRef .tc main_arg1) = V (Proc.devRef .tc main_arg1) := by
  simp only [T6, after_cons, after_nil]
  rfl

/-- The stretch writes no buffer of the assignment of nodes to graphs: it is left as it was. -/
theorem T6_arg2 (V : Valuation τ sig (Elt F)) :
    after T6 V (Proc.devRef .tc main_arg2) = V (Proc.devRef .tc main_arg2) := by
  simp only [T6, after_cons, after_nil]
  rfl

/-- The stretch writes no buffer of the first weight matrix: it is left as it was. -/
theorem T6_arg3 (V : Valuation τ sig (Elt F)) :
    after T6 V (Proc.devRef .tc main_arg3) = V (Proc.devRef .tc main_arg3) := by
  simp only [T6, after_cons, after_nil]
  rfl

/-- The stretch writes no buffer of the second weight matrix: it is left as it was. -/
theorem T6_arg4 (V : Valuation τ sig (Elt F)) :
    after T6 V (Proc.devRef .tc main_arg4) = V (Proc.devRef .tc main_arg4) := by
  simp only [T6, after_cons, after_nil]
  rfl

/-- The stretch writes no buffer of the third weight matrix: it is left as it was. -/
theorem T6_arg5 (V : Valuation τ sig (Elt F)) :
    after T6 V (Proc.devRef .tc main_arg5) = V (Proc.devRef .tc main_arg5) := by
  simp only [T6, after_cons, after_nil]
  rfl

end Cert.ReferenceIdeal.Hand

end
-- ==== Proof.RefValue3.lean ====
/-
  What each stretch of the reference leaves in the buffers later stretches read, as the named functions of a
  graph-convolution layer applied to what the stretch found in the buffers it reads (part 3 of 3). Each
  equation holds by unfolding the stretch operation by operation: an operation's result is its function of its
  operands' contents at its own buffer, and what was there at any other.
-/
import proofs.«124265_j30657476559416_1_alg».proof.Proof.RefStretch

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- a scatter, a gather, a concatenation and a reciprocal square root are compared as wholes: the equations below never look inside one
attribute [local irreducible] Host.scatterAdd Host.gather concatenate Host.rsqrt

/-! ### Stretch 7 -/

/-- The third dense product, of the rectified features. -/
theorem T7_v82 (V : Valuation τ sig (Elt F)) :
    after T7 V (Proc.devRef .tc main_v82) = Spec.dense (Spec.rectify (V (Proc.devRef .tc main_v80))) (V (Proc.devRef .tc main_arg5)) := by
  simp only [T7, after_cons, after_nil]
  rfl

/-- The inverse square root of every node's degree, computed a third time from the target nodes. -/
theorem T7_v90 (V : Valuation τ sig (Elt F)) :
    after T7 V (Proc.devRef .tc main_v90) = Cert.KernelIdeal.Chain.invSqrtDegree (V (Proc.devRef .tc main_v6)) := by
  simp only [T7, after_cons, after_nil]
  rfl

/-- The stretch writes no buffer of the source nodes: it is left as it was. -/
theorem T7_v3 (V : Valuation τ sig (Elt F)) :
    after T7 V (Proc.devRef .tc main_v3) = V (Proc.devRef .tc main_v3) := by
  simp only [T7, after_cons, after_nil]
  rfl

/-- The stretch writes no buffer of the target nodes: it is left as it was. -/
theorem T7_v6 (V : Valuation τ sig (Elt F)) :
    after T7 V (Proc.devRef .tc main_v6) = V (Proc.devRef .tc main_v6) := by
  simp only [T7, after_cons, after_nil]
  rfl

/-- The stretch writes no buffer of the node features: it is left as it was. -/
theorem T7_arg0 (V : Valuation τ sig (Elt F)) :
    after T7 V (Proc.devRef .tc main_arg0) = V (Proc.devRef .tc main_arg0) := by
  simp only [T7, after_cons, after_nil]
  rfl

/-- The stretch writes no buffer of the edge list: it is left as it was. -/
theorem T7_arg1 (V : Valuation τ sig (Elt F)) :
    after T7 V (Proc.devRef .tc main_arg1) = V (Proc.devRef .tc main_arg1) := by
  simp only [T7, after_cons, after_nil]
  rfl

/-- The stretch writes no buffer of the assignment of nodes to graphs: it is left as it was. -/
theorem T7_arg2 (V : Valuation τ sig (Elt F)) :
    after T7 V (Proc.devRef .tc main_arg2) = V (Proc.devRef .tc main_arg2) := by
  simp only [T7, after_cons, after_nil]
  rfl

/-- The stretch writes no buffer of the first weight matrix: it is left as it was. -/
theorem T7_arg3 (V : Valuation τ sig (Elt F)) :
    after T7 V (Proc.devRef .tc main_arg3) = V (Proc.devRef .tc main_arg3) := by
  simp only [T7, after_cons, after_nil]
  rfl

/-- The stretch writes no buffer of the second weight matrix: it is left as it was. -/
theorem T7_arg4 (V : Valuation τ sig (Elt F)) :
    after T7 V (Proc.devRef .tc main_arg4) = V (Proc.devRef .tc main_arg4) := by
  simp only [T7, after_cons, after_nil]
  rfl

/-- The stretch writes no buffer of the third weight matrix: it is left as it was. -/
theorem T7_arg5 (V : Valuation τ sig (Elt F)) :
    after T7 V (Proc.devRef .tc main_arg5) = V (Proc.devRef .tc main_arg5) := by
  simp only [T7, after_cons, after_nil]
  rfl

/-! ### Stretch 8 -/

/-- The edge weights of the third layer. -/
theorem T8_v105 (V : Valuation τ sig (Elt F)) :
    after T8 V (Proc.devRef .tc main_v105) = weightOf (V (Proc.devRef .tc main_v90)) (V (Proc.devRef .tc main_v3)) (V (Proc.devRef .tc main_v6)) := by
  simp only [T8, after_cons, after_nil]
  rfl

/-- The stretch writes no buffer of the source nodes: it is left as it was. -/
theorem T8_v3 (V : Valuation τ sig (Elt F)) :
    after T8 V (Proc.devRef .tc main_v3) = V (Proc.devRef .tc main_v3) := by
  simp only [T8, after_cons, after_nil]
  rfl

/-- The stretch writes no buffer of the target nodes: it is left as it was. -/
theorem T8_v6 (V : Valuation τ sig (Elt F)) :
    after T8 V (Proc.devRef .tc main_v6) = V (Proc.devRef .tc main_v6) := by
  simp only [T8, after_cons, after_nil]
  rfl

/-- The stretch writes no buffer of the third dense product: it is left as it was. -/
theorem T8_v82 (V : Valuation τ sig (Elt F)) :
    after T8 V (Proc.devRef .tc main_v82) = V (Proc.devRef .tc main_v82) := by
  simp only [T8, after_cons, after_nil]
  rfl

/-- The stretch writes no buffer of the node features: it is left as it was. -/
theorem T8_arg0 (V : Valuation τ sig (Elt F)) :
    after T8 V (Proc.devRef .tc main_arg0) = V (Proc.devRef .tc main_arg0) := by
  simp only [T8, after_cons, after_nil]
  rfl

/-- The stretch writes no buffer of the edge list: it is left as it was. -/
theorem T8_arg1 (V : Valuation τ sig (Elt F)) :
    after T8 V (Proc.devRef .tc main_arg1) = V (Proc.devRef .tc main_arg1) := by
  simp only [T8, after_cons, after_nil]
  rfl

/-- The stretch writes no buffer of the assignment of nodes to graphs: it is left as it was. -/
theorem T8_arg2 (V : Valuation τ sig (Elt F)) :
    after T8 V (Proc.devRef .tc main_arg2) = V (Proc.devRef .tc main_arg2) := by
  simp only [T8, after_cons, after_nil]
  rfl

/-- The stretch writes no buffer of the first weight matrix: it is left as it was. -/
theorem T8_arg3 (V : Valuation τ sig (Elt F)) :
    after T8 V (Proc.devRef .tc main_arg3) = V (Proc.devRef .tc main_arg3) := by
  simp only [T8, after_cons, after_nil]
  rfl

/-- The stretch writes no buffer of the second weight matrix: it is left as it was. -/
theorem T8_arg4 (V : Valuation τ sig (Elt F)) :
    after T8 V (Proc.devRef .tc main_arg4) = V (Proc.devRef .tc main_arg4) := by
  simp only [T8, after_cons, after_nil]
  rfl

/-- The stretch writes no buffer of the third weight matrix: it is left as it was. -/
theorem T8_arg5 (V : Valuation τ sig (Elt F)) :
    after T8 V (Proc.devRef .tc main_arg5) = V (Proc.devRef .tc main_arg5) := by
  simp only [T8, after_cons, after_nil]
  rfl

/-! ### Stretch 9 -/

/-- The pooled result: the third propagation's rows added into the rows of their graphs. -/
theorem T9_v121 (V : Valuation τ sig (Elt F)) :
    after T9 V (Proc.devRef .tc main_v121) = Cert.KernelIdeal.Chain.pool (V (Proc.devRef .tc main_arg2)) (Cert.KernelIdeal.Chain.propagate (V (Proc.devRef .tc main_v105)) (V (Proc.devRef .tc main_v3)) (V (Proc.devRef .tc main_v6)) (V (Proc.devRef .tc main_v82))) := by
  simp only [T9, after_cons, after_nil]
  rfl

/-- The stretch writes no buffer of the node features: it is left as it was. -/
theorem T9_arg0 (V : Valuation τ sig (Elt F)) :
    after T9 V (Proc.devRef .tc main_arg0) = V (Proc.devRef .tc main_arg0) := by
  simp only [T9, after_cons, after_nil]
  rfl

/-- The stretch writes no buffer of the edge list: it is left as it was. -/
theorem T9_arg1 (V : Valuation τ sig (Elt F)) :
    after T9 V (Proc.devRef .tc main_arg1) = V (Proc.devRef .tc main_arg1) := by
  simp only [T9, after_cons, after_nil]
  rfl

/-- The stretch writes no buffer of the assignment of nodes to graphs: it is left as it was. -/
theorem T9_arg2 (V : Valuation τ sig (Elt F)) :
    after T9 V (Proc.devRef .tc main_arg2) = V (Proc.devRef .tc main_arg2) := by
  simp only [T9, after_cons, after_nil]
  rfl

/-- The stretch writes no buffer of the first weight matrix: it is left as it was. -/
theorem T9_arg3 (V : Valuation τ sig (Elt F)) :
    after T9 V (Proc.devRef .tc main_arg3) = V (Proc.devRef .tc main_arg3) := by
  simp only [T9, after_cons, after_nil]
  rfl

/-- The stretch writes no buffer of the second weight matrix: it is left as it was. -/
theorem T9_arg4 (V : Valuation τ sig (Elt F)) :
    after T9 V (Proc.devRef .tc main_arg4) = V (Proc.devRef .tc main_arg4) := by
  simp only [T9, after_cons, after_nil]
  rfl

/-- The stretch writes no buffer of the third weight matrix: it is left as it was. -/
theorem T9_arg5 (V : Valuation τ sig (Elt F)) :
    after T9 V (Proc.devRef .tc main_arg5) = V (Proc.devRef .tc main_arg5) := by
  simp only [T9, after_cons, after_nil]
  rfl

end Cert.ReferenceIdeal.Hand

end
-- ==== Proof.RefRun.lean ====
/-
  The reference's run: every weakly fair execution of its @main ends with the result buffer at the forward pass
  of the six arguments and the arguments unchanged. @main is a straight line of host operations, so its run is the
  fold of their results over the launch contents; the fold is read stretch by stretch through the named functions
  of a graph-convolution layer.
-/
import proofs.«124265_j30657476559416_1_alg».proof.Proof.RefSpec
import Idealize.ShloMosaic.Lib.StableHlo.Run
import proofs.«124265_j30657476559416_1_alg».proof.Proof.RefValue1
import proofs.«124265_j30657476559416_1_alg».proof.Proof.RefValue2
import proofs.«124265_j30657476559416_1_alg».proof.Proof.RefValue3

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- After @main's operations the result buffer holds the forward pass of the six arguments: read from the last
    stretch back to the first, the pooling of the third propagation, whose features are the third dense product of
    the rectified second propagation, and so on down to the arguments; every layer's edge weights are the same
    function of the one edge list. -/
theorem value (V : Valuation τ sig (Elt F)) :
    after ops V (Proc.devRef .tc main_v121)
      = Spec.result (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [after_ops]
  rw [T9_v121]
  rw [T8_arg2, T8_v105, T8_v3, T8_v6, T8_v82]
  rw [T7_arg2, T7_v90, T7_v3, T7_v6, T7_v82]
  rw [T6_arg2, T6_v3, T6_v6, T6_v80, T6_arg5]
  rw [T5_arg2, T5_v67, T5_v3, T5_v6, T5_v44, T5_arg5]
  rw [T4_arg2, T4_v52, T4_v3, T4_v6, T4_v44, T4_arg5]
  rw [T3_arg2, T3_v43, T3_v3, T3_v6, T3_arg4, T3_arg5]
  rw [T2_arg2, T2_v30, T2_v3, T2_v6, T2_v7, T2_arg4, T2_arg5]
  rw [T1_arg2, T1_v15, T1_v3, T1_v6, T1_v7, T1_arg4, T1_arg5]
  rfl

/-- No operation of @main writes the node features. -/
theorem arg0_eq (V : Valuation τ sig (Elt F)) :
    after ops V (Proc.devRef .tc main_arg0) = V (Proc.devRef .tc main_arg0) := by
  rw [after_ops, T9_arg0, T8_arg0, T7_arg0, T6_arg0, T5_arg0, T4_arg0, T3_arg0, T2_arg0, T1_arg0]

/-- No operation of @main writes the edge list. -/
theorem arg1_eq (V : Valuation τ sig (Elt F)) :
    after ops V (Proc.devRef .tc main_arg1) = V (Proc.devRef .tc main_arg1) := by
  rw [after_ops, T9_arg1, T8_arg1, T7_arg1, T6_arg1, T5_arg1, T4_arg1, T3_arg1, T2_arg1, T1_arg1]

/-- No operation of @main writes the assignment of nodes to graphs. -/
theorem arg2_eq (V : Valuation τ sig (Elt F)) :
    after ops V (Proc.devRef .tc main_arg2) = V (Proc.devRef .tc main_arg2) := by
  rw [after_ops, T9_arg2, T8_arg2, T7_arg2, T6_arg2, T5_arg2, T4_arg2, T3_arg2, T2_arg2, T1_arg2]

/-- No operation of @main writes the first weight matrix. -/
theorem arg3_eq (V : Valuation τ sig (Elt F)) :
    after ops V (Proc.devRef .tc main_arg3) = V (Proc.devRef .tc main_arg3) := by
  rw [after_ops, T9_arg3, T8_arg3, T7_arg3, T6_arg3, T5_arg3, T4_arg3, T3_arg3, T2_arg3, T1_arg3]

/-- No operation of @main writes the second weight matrix. -/
theorem arg4_eq (V : Valuation τ sig (Elt F)) :
    after ops V (Proc.devRef .tc main_arg4) = V (Proc.devRef .tc main_arg4) := by
  rw [after_ops, T9_arg4, T8_arg4, T7_arg4, T6_arg4, T5_arg4, T4_arg4, T3_arg4, T2_arg4, T1_arg4]

/-- No operation of @main writes the third weight matrix. -/
theorem arg5_eq (V : Valuation τ sig (Elt F)) :
    after ops V (Proc.devRef .tc main_arg5) = V (Proc.devRef .tc main_arg5) := by
  rw [after_ops, T9_arg5, T8_arg5, T7_arg5, T6_arg5, T5_arg5, T4_arg5, T3_arg5, T2_arg5, T1_arg5]

/-- On every device, for any float values, from any memory with zero counters: every weakly fair execution of the
    reference's @main terminates with the result buffer at the forward pass of the six arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v121)
          = Cert.ReferenceIdeal.Spec.result (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v121).trans (value (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c))⟩)
    (run_seq scopedRefs_eq scopedSems_eq defs main (fun _ => ops) main_eq (fun _ => ops_sub) m ρ (fun _ => ops_fresh))

end Cert.ReferenceIdeal.Hand

end
-- ==== Proof.Bridge.lean ====
/-
  The reference's forward pass is the kernel program's, as functions of the six arguments at the ideal values.

  Three facts. The host's `dot_general` of a [100000, 128] array with a [128, 128] array, read at an index, is the sum
  over the contracted axis of the products: the dense product. The reference's rectifier, `x ≥ 0` selecting `x` and
  `slope · x` otherwise, is the leaky rectifier entry by entry. And the propagation and pooling around them are the
  same named functions in both programs. No law of arithmetic is used beyond reading each operation at an index, so
  nothing here needs the inputs to be finite.
-/
import proofs.«124265_j30657476559416_1_alg».proof.Proof.RefSpec
import proofs.«124265_j30657476559416_1_alg».proof.Proof.Spec
import Idealize.ShloMosaic.Lib.ValueIdx
import Idealize.ShloMosaic.PureOps.Ideal.Laws

noncomputable section

namespace Cert.Bridge

open Idealize.ShloMosaic Idealize.ShloMosaic.ValueIdx

/-! ## The host product read at an index -/

/-- The left operand is read at the result's row … -/
theorem lhs_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl

/-- … and at the contraction position on its second axis. -/
theorem lhs_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q

/-- The right operand is read at the contraction position on its first axis … -/
theorem rhs_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q

/-- … and at the result's column. -/
theorem rhs_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- The host's `dot_general` is the dense product: entry `(r, q)` is the sum over `k` of `x[r, k] * w[k, q]`. -/
theorem dense_eq (x : (⟨Cert.ReferenceIdeal.S100000x128, .f32⟩ : BufTy).Contents (Elt Ideal)) (w : (⟨Cert.ReferenceIdeal.S128x128, .f32⟩ : BufTy).Contents (Elt Ideal)) :
    Cert.ReferenceIdeal.Spec.dense (F := Ideal) x w = Cert.Dense.product x w := by
  funext i
  unfold Cert.ReferenceIdeal.Spec.dense Cert.Dense.product
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx i ((ValueIdx.contrEquiv1 Cert.ReferenceIdeal.dot_S100000x128_S128x128_S100000x128_1_0_0_1_n_n 128 rfl rfl).symm k) = ix2 (n0 := 100000) (n1 := 128) (i 0) k := funext fun a => Fin.ext (by
    match a with
    | ⟨0, _⟩ => exact lhs_0 _ _
    | ⟨1, _⟩ => exact (lhs_1 _ _).trans hk)
  have er : Cert.ReferenceIdeal.dot_S100000x128_S128x128_S100000x128_1_0_0_1_n_n.rhsIdx i ((ValueIdx.contrEquiv1 Cert.ReferenceIdeal.dot_S100000x128_S128x128_S100000x128_1_0_0_1_n_n 128 rfl rfl).symm k) = ix2 (n0 := 128) (n1 := 128) k (i 1) := funext fun a => Fin.ext (by
    match a with
    | ⟨0, _⟩ => exact (rhs_0 _ _).trans hk
    | ⟨1, _⟩ => exact rhs_1 _ _)
  rw [el, er]

/-! ## The rectifier -/

/-- The reference's `where(x ≥ 0, x, slope · x)` is the leaky rectifier at every entry. -/
theorem rectify_eq (x : (⟨Cert.ReferenceIdeal.S100000x128, .f32⟩ : BufTy).Contents (Elt Ideal)) :
    Cert.ReferenceIdeal.Spec.rectify (F := Ideal) x = Cert.Dense.leakyAll x := by
  funext i
  unfold Cert.ReferenceIdeal.Spec.rectify Cert.Dense.leakyAll Cert.Dense.leaky Cert.Dense.slope
  show Scalar.select (Ideal.cmp .oge (x i) (Ideal.ofBits .f32 0x00000000#32)) (x i) (Ideal.ofBits .f32 0x3C23D70A#32 * x i) = _
  rw [Ideal.ofBits_zero_f32]
  by_cases h : (0 : EReal) ≤ x i
  · rw [show Ideal.cmp .oge (x i) 0 = 1#1 from by simp [Ideal.cmp, h], select_one, if_pos h]
  · rw [show Ideal.cmp .oge (x i) 0 = 0#1 from by simp [Ideal.cmp, h], select_zero, if_neg h]

/-! ## The two forward passes -/

/-- The propagation along the edges is one function in both programs. -/
theorem spread_eq (ei : (⟨Cert.ReferenceIdeal.S2x640000, .i32⟩ : BufTy).Contents (Elt Ideal)) (xw : (⟨Cert.ReferenceIdeal.S100000x128, .f32⟩ : BufTy).Contents (Elt Ideal)) :
    Cert.ReferenceIdeal.Spec.spread (F := Ideal) ei xw = Cert.KernelIdeal.Spec.spread ei xw := rfl

/-- The reference's result is the kernel program's, for any six arguments. -/
theorem result_eq (x : (⟨Cert.ReferenceIdeal.S100000x128, .f32⟩ : BufTy).Contents (Elt Ideal)) (ei : (⟨Cert.ReferenceIdeal.S2x640000, .i32⟩ : BufTy).Contents (Elt Ideal))
    (batch : (⟨Cert.ReferenceIdeal.S100000, .i32⟩ : BufTy).Contents (Elt Ideal)) (w0 w1 w2 : (⟨Cert.ReferenceIdeal.S128x128, .f32⟩ : BufTy).Contents (Elt Ideal)) :
    Cert.ReferenceIdeal.Spec.result (F := Ideal) x ei batch w0 w1 w2 = Cert.KernelIdeal.Spec.result x ei batch w0 w1 w2 := by
  unfold Cert.ReferenceIdeal.Spec.result Cert.KernelIdeal.Spec.result
  rw [dense_eq, spread_eq, dense_eq, spread_eq, rectify_eq, dense_eq, spread_eq]

end Cert.Bridge

end
-- ==== Proof.lean ====
/-
  Three graph-convolution layers and a pooling: the kernel program against its jnp reference, over the extended reals.

  The kernel program computes each layer's dense product `x · W` in a pallas_call, 5000 rows of the 100000 at a time
  (the third call rectifies its input first: `v` if `v > 0`, else `slope · v`), and leaves the degree normalisation,
  the gather along the edges, the scatter-add into the target nodes and the final pooling to the host; the reference
  does all of it on the host, with `dot_general` for the products and `where(v ≥ 0, v, slope · v)` for the rectifier.
  At the ideal values a change of float format is the identity, a matrix product accumulated into zero is the plain sum
  of products whatever its tiling, and the two rectifiers differ only at `v = 0`, where both give `0`; everything else
  is the same host operations applied to equal arrays. So both programs compute one function of the six arguments.

  The frames of the two kernel programs are the generated ones; the reference's frame is its run with the result
  dropped; the ideal pass rewrote nothing, so `preserves` is trivial.
-/
import proofs.«124265_j30657476559416_1_alg».proof.Defs
import proofs.«124265_j30657476559416_1_alg».proof.Proof.Gen.Kernel
import proofs.«124265_j30657476559416_1_alg».proof.Proof.Gen.Kernel.Frame
import proofs.«124265_j30657476559416_1_alg».proof.Proof.Gen.KernelIdeal
import proofs.«124265_j30657476559416_1_alg».proof.Proof.Gen.KernelIdeal.Frame
import proofs.«124265_j30657476559416_1_alg».proof.Proof.Gen.ReferenceIdeal
import proofs.«124265_j30657476559416_1_alg».proof.Proof.Gen.Pre_finite_inputs
import proofs.«124265_j30657476559416_1_alg».proof.Proof.KernelRun
import proofs.«124265_j30657476559416_1_alg».proof.Proof.KernelFold
import proofs.«124265_j30657476559416_1_alg».proof.Proof.RefRun
import proofs.«124265_j30657476559416_1_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- The ideal pass rewrote no operation. -/
theorem preserves : Cert.preserves_Kernel_KernelIdeal := trivial

/-- Both programs end with the pooled third layer of the same forward pass of the six arguments. -/
theorem algebraic : Cert.algebraic_KernelIdeal_ReferenceIdeal := by
  intro m ρ m' ρ' _ hagree
  refine ⟨_, (θ_run Cert.KernelIdeal.defs _ _).mono
      (fun _ h c => ⟨(h c).1.trans (Cert.KernelIdeal.Fold.result m ρ c), (h c).2⟩)
      (Cert.KernelIdeal.Named.run (F := Ideal) m ρ), ?_⟩
  refine (θ_run Cert.ReferenceIdeal.defs _ _).mono (fun _ h c => ⟨(h c).1.trans ?_, (h c).2⟩)
    (Cert.ReferenceIdeal.Hand.run (F := Ideal) m' ρ')
  obtain ⟨e0, e1, e2, e3, e4, e5⟩ := hagree c
  rw [e0, e1, e2, e3, e4, e5]
  exact Cert.Bridge.result_eq _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
